-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x5000x10000 : Shape := ⟨3, ![2, 5000, 10000]⟩
abbrev S1x128 : Shape := ⟨2, ![1, 128]⟩
abbrev S2x5000x128 : Shape := ⟨3, ![2, 5000, 128]⟩
abbrev S1x200x10000 : Shape := ⟨3, ![1, 200, 10000]⟩
abbrev S2x200x128 : Shape := ⟨3, ![2, 200, 128]⟩
abbrev S200x128 : Shape := ⟨2, ![200, 128]⟩
abbrev S200x10000 : Shape := ⟨2, ![200, 10000]⟩
abbrev S1x200x128 : Shape := ⟨3, ![1, 200, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S2x5000x10000, .f32⟩
  | .hbm, ⟨6, _⟩ => ⟨S1x128, .f32⟩
  | .hbm, ⟨7, _⟩ => ⟨S2x5000x128, .f32⟩
  | .hbm, ⟨8, _⟩ => ⟨S10000x128, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S2x200x128, .f32⟩
  | .local _ .vmem, ⟨9, _⟩ => ⟨S2x200x128, .f32⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v7 : BitVec 32 := Scalar.muli arg0 c200_i32
  let v8 : Index := Scalar.indexCast v7
  let c0_6 : Index := 0#32
  ![v8.toNat, 0]
def k0_off2 (i : grid0.Coords) : Fin 2 → Nat :=
  let c5000_i32 : BitVec 32 := 5000#32
  let arg0 : BitVec 32 := BitVec.ofNat 32 (i 0).val
  let c200_i32_7 : BitVec 32 := 200#32
  let v10 : BitVec 32 := Scalar.muli arg0 c200_i32_7
  let v11 : BitVec 32 := Scalar.addi c5000_i32 v10
  let v12 : Index := Scalar.indexCast v11
  let c0_8 : Index := 0#32
  ![v12.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S10000x10000_S2x5000x10000 : S10000x10000.ShapeCasts S2x5000x10000
  shapeCasts_S128_S1x128 : S128.ShapeCasts S1x128
  shapeCasts_S2x5000x128_S10000x128 : S2x5000x128.ShapeCasts S10000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S200x128 : 0 < S200x128.numel
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  broadcasts_S1x128_S200x128 : S1x128.Broadcasts S200x128
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x10000.size a ≤ S2x5000x10000.size a
  hwx0_0 : ∀ i : grid0.Coords, EltTy.bits .f32 = 32 ∨ (Rect.block (s := S2x5000x10000) S1x200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x10000.size a ≤ S2x5000x10000.size a
  hwx0_1 : ∀ i : grid0.Coords, EltTy.bits .f32 = 32 ∨ (Rect.block (s := S2x5000x10000) S1x200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x200x128.size a ≤ S2x5000x128.size a
  hwx0_6 : ∀ i : grid0.Coords, EltTy.bits .f32 = 32 ∨ (Rect.block (s := S2x5000x128) S2x200x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_call0_v0) S1x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S2x200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Runs.lean ====
import proofs.«164299_g56822417326211_cont_9to1_m_1158_12_alg».proof.Proof.Gen.Kernel.Launch
import proofs.«164299_g56822417326211_cont_9to1_m_1158_12_alg».proof.Proof.Gen.Kernel.Skeleton
import proofs.«164299_g56822417326211_cont_9to1_m_1158_12_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# What the two cases of the kernel body share

The body branches once, on whether the grid point is the first: only there does it compute the transformed features
of every node and store them into its scratch buffer.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: the point is the first. -/
abbrev cond0 (i : grid0.Coords) : Prop :=
  (Scalar.cmpi .ne (Scalar.extui (Scalar.cmpi .eq (BitVec.ofNat 32 (i 0).val) 0#32)) 0#32) = 1#1

/-- It holds at point 0 only: decided over the 25 points. -/
theorem hcond0 : ∀ t : Fin cfg0.N, cond0 (grid0.coords t) ↔ t.val = 0 :=
  (by decide +kernel : ∀ t : Fin grid0.N, cond0 (grid0.coords t) ↔ t.val = 0)

end Cert.Kernel.Hand

end
-- ==== Proof.K.RunA.lean ====
import proofs.«164299_g56822417326211_cont_9to1_m_1158_12_alg».proof.Proof.K.Runs

/-!
# The kernel body at the first grid point

At point 0 the branch is taken: the body loads all of `x` and the neighbour weights, stores their product (rounded
to half precision) over the whole scratch buffer, then loads it back with the own weights, the bias row, two row
blocks of `x` and the two adjacency blocks, and stores the two row slabs of the output block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block's buffer and in the scratch buffer at the first point, with the
    proof that from whole staging buffers — the six inputs at their contents, the output's and the scratch at
    anything — the body runs to the continuation holding the inputs as they were and the two written buffers with
    those pieces written. -/
noncomputable def kernelRun_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) :
    Σ' (L6 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8) K } := by
  refine ⟨?_, ?_, fun E K => ?run⟩
  case run =>
    simp only [cc0__main_kernel_eq_skeleton]; unfold cc0__main_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H8

end Cert.Kernel.Hand

end
-- ==== Proof.K.RunB.lean ====
import proofs.«164299_g56822417326211_cont_9to1_m_1158_12_alg».proof.Proof.K.RunA

/-!
# The kernel body at a later grid point

After point 0 the branch is not taken: the body loads the scratch buffer as the first point left it, the own weights,
the bias row, two row blocks of `x` and the two adjacency blocks, and stores the two row slabs of the output block;
the scratch buffer is handed back as it was found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block's buffer at a later point, with the proof that from whole staging
    buffers — the six inputs and the scratch at their contents, the output's at anything — the body runs to the
    continuation holding the inputs and the scratch as they were and the output's buffer with those pieces written. -/
noncomputable def kernelRun_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) :
    { L6 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ owns (c : Thread nD τ) arg8 fullShare xs) -∗ K ⟨⟩))
          ⊢ wp frame (wpE (defs₀ (F := F)) Variants.none c none) E (cc0__main_kernel i arg1 harg1 arg2 harg2 arg3 harg3 arg4 harg4 arg5 harg5 arg6 harg6 arg7 harg7 arg8 harg8) K } := by
  refine ⟨?_, fun E K => ?run⟩
  case run =>
    simp only [cc0__main_kernel_eq_skeleton]; unfold cc0__main_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact H8

end Cert.Kernel.Hand

end
-- ==== Proof.K.Launch.lean ====
import proofs.«164299_g56822417326211_cont_9to1_m_1158_12_alg».proof.Proof.Gen.Kernel.Launch
import proofs.«164299_g56822417326211_cont_9to1_m_1158_12_alg».proof.Proof.Gen.Kernel.Points
import Idealize.ShloMosaic.Lib.Pipeline.FrameBody
import Idealize.ShloMosaic.Lib.Pipeline.FrameSuffix

/-!
# The run of the program for any proof data of its one pipeline

The adjacency array, viewed as two slabs of 5000 rows, is handed to the kernel through two input windows, so the
two windows' arrays are one buffer: each window holds it at one half of the full share. Every other window's array
is a buffer of its own, held whole. @main reshapes two arguments, runs the pipeline, and reshapes the pipeline's
result array into the program's result.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the pipeline is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The contents the last reshape starts from: the entry contents with the pipeline's result array at `X`. -/
def Wout (c : Dev nD) (X : Buf (Elt F) ((c : Thread nD τ).loc main_call0_v2)) : Valuation τ sig (Elt F) :=
  Function.update (V0 m c) (Proc.devRef .tc main_call0_v2) X

/-! ## @main around the pipeline -/

/-- The reshapes allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is two reshapes, the pipeline, one reshape: it reduces to the pipeline continued by the last reshape, at the
    contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays at the pipeline's entry -/

/-- A window's array is a whole buffer: its points-to is over every element. -/
theorem win_pt {c : Dev nD} (dat : Dat τ (Elt F) Unit ℕ (UR sig nD τ) ℕ cfg0 c) (w : Fin 7)
    (G : Buf (Elt F) ((cfg0.win w).arr.view.loc (c.tc : Thread nD τ))) :
    (((cfg0.win w).arr.view.loc (c.tc : Thread nD τ)) ↦[(cfg0.win w).arr.view.set]{dat.share w} G : sProp 𝕄)
      = (((c.tc : Thread nD τ).loc (Pipeline.arrRef spec0 w)) ↦{dat.share w} G) := by
  rw [(arr_whole0 w).set_eq_univ]

/-- An input window's array is held at the share the proof data name, -/
theorem share_in {c : Dev nD} (dat : Dat τ (Elt F) Unit ℕ (UR sig nD τ) ℕ cfg0 c) (w : Fin 7) (h : (cfg0.win w).isOut = false) :
    dat.share w = dat.q w := by
  unfold Dat.share; rw [h]; rfl
/-- and an output window's at the full share. -/
theorem share_out {c : Dev nD} (dat : Dat τ (Elt F) Unit ℕ (UR sig nD τ) ℕ cfg0 c) (w : Fin 7) (h : (cfg0.win w).isOut = true) :
    dat.share w = fullShare := by
  unfold Dat.share; rw [if_pos h]

/-- The windows' arrays one by one, each a whole buffer at its share. -/
theorem arrays_open {c : Dev nD} (dat : Dat τ (Elt F) Unit ℕ (UR sig nD τ) ℕ cfg0 c)
    (G : (w : Fin 7) → Buf (Elt F) ((cfg0.win w).arr.view.loc (c.tc : Thread nD τ))) :
    (dat.arrays G : sProp 𝕄)
      = iprop((((c.tc : Thread nD τ).loc main_call0_v0) ↦{dat.q 0} G 0) ∗ (((c.tc : Thread nD τ).loc main_call0_v0) ↦{dat.q 1} G 1)
          ∗ (((c.tc : Thread nD τ).loc main_arg0) ↦{dat.q 2} G 2) ∗ (((c.tc : Thread nD τ).loc main_arg2) ↦{dat.q 3} G 3)
          ∗ (((c.tc : Thread nD τ).loc main_arg3) ↦{dat.q 4} G 4) ∗ (((c.tc : Thread nD τ).loc main_call0_v1) ↦{dat.q 5} G 5)
          ∗ (((c.tc : Thread nD τ).loc main_call0_v2) ↦{fullShare} G 6)) := by
  unfold Dat.arrays
  rw [bigSep_W0, win_pt dat 0, win_pt dat 1, win_pt dat 2, win_pt dat 3, win_pt dat 4, win_pt dat 5, win_pt dat 6,
    share_in dat 0 rfl, share_in dat 1 rfl, share_in dat 2 rfl, share_in dat 3 rfl, share_in dat 4 rfl, share_in dat 5 rfl,
    share_out dat 6 rfl]

/-- The six buffers behind the seven windows' arrays, one by one. -/
theorem arrBufs_open (c : Dev nD) (W : (b : Ref sig .tc) → Buf (Elt F) ((c.tc : Thread nD τ).loc b)) :
    (Pipeline.arrBufs spec0 c W : sProp 𝕄)
      = iprop((((c.tc : Thread nD τ).loc main_call0_v0) ↦{fullShare} W main_call0_v0)
          ∗ (((c.tc : Thread nD τ).loc main_arg0) ↦{fullShare} W main_arg0) ∗ (((c.tc : Thread nD τ).loc main_arg2) ↦{fullShare} W main_arg2)
          ∗ (((c.tc : Thread nD τ).loc main_arg3) ↦{fullShare} W main_arg3) ∗ (((c.tc : Thread nD τ).loc main_call0_v1) ↦{fullShare} W main_call0_v1)
          ∗ (((c.tc : Thread nD τ).loc main_call0_v2) ↦{fullShare} W main_call0_v2)) := by
  unfold Pipeline.arrBufs
  exact bigSep_eq_bigSepL_of_eq [main_call0_v0, main_arg0, main_arg2, main_arg3, main_call0_v1, main_call0_v2] (by decide) (by decide) _

/-- The buffers behind the arrays, whole at the entry contents, are the proof data's arrays at entry: the adjacency
    buffer, which two input windows read, split into its two halves. -/
theorem hsplit (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 7), 2 ≤ w.val → (dats 0 c).q w = fullShare) (c : Dev nD) :
    (Pipeline.arrBufs spec0 c (V m c) : sProp 𝕄) ⊢ (dats 0 c).arrays ((dats 0 c).arrAt · 0) := by
  rw [arrBufs_open, arrays_open (dats 0 c), hq0 c, hq1 c, hq c 2 (by decide), hq c 3 (by decide), hq c 4 (by decide), hq c 5 (by decide)]
  rw [show (dats 0 c).arrAt 0 0 = V m c main_call0_v0 from hA c 0, show (dats 0 c).arrAt 1 0 = V m c main_call0_v0 from hA c 1,
    show (dats 0 c).arrAt 2 0 = V m c main_arg0 from hA c 2, show (dats 0 c).arrAt 3 0 = V m c main_arg2 from hA c 3,
    show (dats 0 c).arrAt 4 0 = V m c main_arg3 from hA c 4, show (dats 0 c).arrAt 5 0 = V m c main_call0_v1 from hA c 5,
    show (dats 0 c).arrAt 6 0 = V m c main_call0_v2 from hA c 6]
  iintro ⟨H0, H2, H3, H4, H5, H6⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  isplitl [H4]; · iexact H4
  isplitl [H5]; · iexact H5
  iexact H6

/-! ## The reshape after the pipeline -/

/-- The contents of a buffer once the last reshape has run from the pipeline's exit. -/
abbrev Vend (dats : (p : Fin 1) → (c : Dev nD) → Dat τ (Elt F) Unit ℕ (UR sig nD τ) ℕ (cfgs p) c) (c : Dev nD) (b : Ref sig .tc) :
    Buf (Elt F) ((c : Thread nD τ).loc b) :=
  StableHlo.after hostOps1 (Wout m c ((dats 0 c).arrAt 6 cfg0.N)) (Proc.devRef .tc b)

/-- The two buffers the last reshape touches: the pipeline's result array, which it reads, and the program's result. -/
abbrev tailSet : Finset (DevRef τ sig) := {Proc.devRef .tc main_call0_v2, Proc.devRef .tc main_v0}

theorem hostOps1_bufs : ∀ ops ∈ ([hostOps1] : List (List (HloOp τ sig (Elt F)))), ∀ op ∈ ops, op.bufs ⊆ tailSet := by
  intro ops hops op hop
  rw [List.mem_singleton] at hops; subst hops
  rw [List.mem_singleton] at hop; subst hop
  exact Finset.Subset.refl _

theorem hostOps1_fresh' : ∀ ops ∈ ([hostOps1] : List (List (HloOp τ sig (Elt F)))), ∀ op ∈ ops, op.fresh = ∅ := by
  intro ops hops op hop
  rw [List.mem_singleton] at hops; subst hops
  exact (List.forall_iff_forall_mem.mp hostOps1_fresh) op hop

/-- The reshape writes the program's result only. -/
theorem hostOps1_writes (b : Ref sig .tc) (h : b ≠ main_v0) :
    ∀ op ∈ (hostOps1 : List (HloOp τ sig (Elt F))), Proc.devRef (τ := τ) .tc b ∉ op.writes := by
  intro op hop
  rw [List.mem_singleton] at hop; subst hop
  rw [StableHlo.reshape_writes, Finset.mem_singleton]
  exact StableHlo.devRef_ne_of_ne h

/-- The two buffers held whole, one by one. -/
theorem held_tail (c : Dev nD) (W : Valuation τ sig (Elt F)) :
    (StableHlo.held (c.tc : Thread nD τ) tailSet W : sProp 𝕄)
      = iprop((((c.tc : Thread nD τ).loc main_call0_v2) ↦{fullShare} W (Proc.devRef .tc main_call0_v2))
          ∗ (((c.tc : Thread nD τ).loc main_v0) ↦{fullShare} W (Proc.devRef .tc main_v0))) := by
  unfold StableHlo.held tailSet
  rw [bigSep_insert (fun h => StableHlo.devRef_ne_of_ne (by decide : main_call0_v2 ≠ main_v0) (Finset.mem_singleton.mp h)), bigSep_singleton]
  rfl

theorem Wout_v2 (c : Dev nD) (X : Buf (Elt F) ((c : Thread nD τ).loc main_call0_v2)) :
    Wout m c X (Proc.devRef .tc main_call0_v2) = X := by
  unfold Wout; exact Function.update_self _ _ _

theorem Wout_of_ne (c : Dev nD) (X : Buf (Elt F) ((c : Thread nD τ).loc main_call0_v2)) (b : Ref sig .tc) (h : b ≠ main_call0_v2) :
    Wout m c X (Proc.devRef .tc b) = V m c b := by
  unfold Wout; exact Function.update_of_ne (StableHlo.devRef_ne_of_ne h) _ _

/-- A buffer the reshape neither writes nor reads from the pipeline's result keeps its entry contents. -/
theorem Vend_keep (dats : (p : Fin 1) → (c : Dev nD) → Dat τ (Elt F) Unit ℕ (UR sig nD τ) ℕ (cfgs p) c) (c : Dev nD) (b : Ref sig .tc)
    (h1 : b ≠ main_v0) (h2 : b ≠ main_call0_v2) : Vend m dats c b = V m c b := by
  show StableHlo.after hostOps1 _ _ = _
  rw [StableHlo.after_of_forall_not_mem hostOps1 _ (hostOps1_writes b h1), Wout_of_ne m c _ b h2]

/-- The pipeline's result array is as the pipeline left it. -/
theorem Vend_v2 (dats : (p : Fin 1) → (c : Dev nD) → Dat τ (Elt F) Unit ℕ (UR sig nD τ) ℕ (cfgs p) c) (c : Dev nD) :
    Vend m dats c main_call0_v2 = (dats 0 c).arrAt 6 cfg0.N := by
  show StableHlo.after hostOps1 _ _ = _
  rw [StableHlo.after_of_forall_not_mem hostOps1 _ (hostOps1_writes main_call0_v2 (by decide)), Wout_v2]

set_option backward.isDefEq.respectTransparency.types false in
/-- From the pipeline's exit the reshape runs within the pipeline's result array and the program's result, and hands
    the arrays back unchanged, the bypassing buffers at the contents after it. -/
theorem htail (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Vend m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_open (dats 0 c),
    Vend_keep m dats c main_arg1 (by decide) (by decide), Vend_keep m dats c main_arg4 (by decide) (by decide)]
  iintro ⟨Hk, Hb, ⟨A0, A1, A2, A3, A4, A5, A6⟩, ⟨R1, R4, Rv⟩⟩
  iapply (Pipeline.wp_seqs_then (fun q => (cfgs q).toPCfg (Val := Elt F)) defs₀ Variants.none c tailSet [] [hostOps1] hostOps1_bufs hostOps1_fresh'
    (Wout m c ((dats 0 c).arrAt 6 cfg0.N))) $$ [Hb A6 Rv]
  · rw [held_tail, Wout_v2, Wout_of_ne m c _ main_v0 (by decide)]
    isplitl [Hb]; · iexact Hb
    isplitl [A6]; · iexact A6
    iexact Rv
  iintro H
  rw [Pipeline.chain_nil, wp_pure, held_tail]
  imodintro
  iapply Hk
  icases H with ⟨-, A6, Rv⟩
  rw [show StableHlo.after ([hostOps1] : List (List (HloOp τ sig (Elt F)))).flatten (Wout m c ((dats 0 c).arrAt 6 cfg0.N)) (Proc.devRef .tc main_call0_v2)
      = (dats 0 c).arrAt 6 cfg0.N from Vend_v2 m dats c]
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R4]; · iexact R4
  iexact Rv

/-! ## The final memory -/

/-- A buffer that is not scoped and is no window's array bypasses the pipeline. -/
theorem mem_rest (b : Ref sig .tc) (hs : b.isScoped = false) (ha : ∀ w : Fin 7, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h
    exact k.elim0⟩

/-- The two reshapes before the pipeline write their own results only: any other buffer enters the pipeline at its
    launch contents. -/
theorem V_keep (c : Dev nD) (b : Ref sig .tc) (h0 : b ≠ main_call0_v0) (h1 : b ≠ main_call0_v1) :
    V m c b = m ((c.tc : Thread nD τ).loc b) := by
  show StableHlo.after hostOps0 _ _ = _
  refine StableHlo.after_of_forall_not_mem hostOps0 _ fun op hop => ?_
  simp only [List.mem_cons, List.mem_nil_iff, or_false] at hop
  rcases hop with rfl | rfl
  · rw [StableHlo.reshape_writes, Finset.mem_singleton]; exact StableHlo.devRef_ne_of_ne h0
  · rw [StableHlo.reshape_writes, Finset.mem_singleton]; exact StableHlo.devRef_ne_of_ne h1

/-! ## The run -/

set_option backward.isDefEq.respectTransparency.types false in
/-- Every weakly fair execution of @main terminates; each window's array ends at what the proof data compute
    (`Dat.arrAt` after the last point), the two arguments no window stages are unchanged, and the program's
    result is the last reshape of the pipeline's result array. -/
theorem run_shared
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 7), 2 ≤ w.val → (dats 0 c).q w = fullShare)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w, r.2.mem (((cfg0).spec w).arr.view.loc (c.tc : Thread nD τ)) = (dats 0 c).arrAt w cfg0.N)
      ∧ r.2.mem ((c.tc : Thread nD τ).loc main_arg1) = m ((c.tc : Thread nD τ).loc main_arg1)
      ∧ r.2.mem ((c.tc : Thread nD τ).loc main_arg4) = m ((c.tc : Thread nD τ).loc main_arg4)
      ∧ r.2.mem ((c.tc : Thread nD τ).loc main_v0)
          = StableHlo.after hostOps1 (Wout m c ((dats 0 c).arrAt 6 cfg0.N)) (Proc.devRef .tc main_v0)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq0 hq1 hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats)
    (QY := fun c s => ∀ b ∈ Pipeline.restRefsP sig Pipeline.Prefetch.none spec0, s.mem ((c.tc : Thread nD τ).loc b) = Vend m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m dats c) s')
      isplitl [HU] <;> iassumption)
    (hQ := fun s h c => ⟨(h c).1,
      ((h c).2.2 main_arg1 (mem_rest _ rfl (by decide))).trans
        ((Vend_keep m dats c main_arg1 (by decide) (by decide)).trans (V_keep m c main_arg1 (by decide) (by decide))),
      ((h c).2.2 main_arg4 (mem_rest _ rfl (by decide))).trans
        ((Vend_keep m dats c main_arg4 (by decide) (by decide)).trans (V_keep m c main_arg4 (by decide) (by decide))),
      (h c).2.2 main_v0 (mem_rest _ rfl (by decide))⟩)

end Cert.Kernel.Hand

end
-- ==== Proof.K.Data.lean ====
import proofs.«164299_g56822417326211_cont_9to1_m_1158_12_alg».proof.Proof.K.RunB
import proofs.«164299_g56822417326211_cont_9to1_m_1158_12_alg».proof.Proof.K.Launch

/-!
# The pipeline's proof data and the body obligation

What every staging buffer holds after the body at each grid point: an input's buffer its block of the array (the body
only reads it); the output's buffer the two row slabs the body stores. The scratch buffer holds, from the first point
on, the transformed features of every node, which the first point stores and no later point changes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the pipeline passes the body, and the scratch -/

abbrev ms0 (t : Fin cfg0.N) : Memref sig .tc .vmem S1x200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x200x128 .f32 := win0_6.stage (cfg0.slots t 6)
abbrev hs6 (t : Fin cfg0.N) : (ms6 t).IsWhole := hstage0_6 ((cfg0.slots t 6).cast nbuf0_6)
/-- The scratch operand: a whole scoped buffer of the kernel's own. -/
abbrev scM : Memref sig .tc .vmem S10000x128 .bf16 := Memref.whole cc0_scratch0
/-- One staging buffer of the output window, through which its contents are stated. -/
abbrev VO6 : View sig .tc .vmem S2x200x128 .f32 := (Memref.whole cc0_stg6_0 : Memref sig .tc .vmem S2x200x128 .f32).view
/-- The scratch as a view. -/
abbrev VS : View sig .tc .vmem S10000x128 .bf16 := (scM).view

/-- The class's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl

/-! ## What each case leaves in the two buffers it writes -/

/-- The output block's buffer after the first point: the body's pieces read back. -/
def out_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) : Vec F S2x200x128 .f32 :=
  VO6.read (Elt F) (VO6.writes (Elt F) VO6.junk (kernelRun_A c i arg1 harg1 arg2 harg2 arg3 harg3 arg4 harg4 arg5 harg5 arg6 harg6 arg7 harg7 arg8 harg8 hc x0 x1 x2 x3 x4 x5).1)

/-- Those pieces cover the block: two slabs along the leading axis. -/
theorem cover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) (y : S2x200x128.Idx) :
    ∃ pc ∈ (kernelRun_A c i arg1 harg1 arg2 harg2 arg3 harg3 arg4 harg4 arg5 harg5 arg6 harg6 arg7 harg7 arg8 harg8 hc x0 x1 x2 x3 x4 x5).1, y ∈ pc.1.set :=
  View.cover_of_tiledL (kernelRun_A c i arg1 harg1 arg2 harg2 arg3 harg3 arg4 harg4 arg5 harg5 arg6 harg6 arg7 harg7 arg8 harg8 hc x0 x1 x2 x3 x4 x5).1 S1x200x128.size (by sl_kernel_rfl) y

/-- The scratch after the first point: the one piece stored over it, read back. -/
def sout_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) : Vec F S10000x128 .bf16 :=
  VS.read (Elt F) (VS.writes (Elt F) VS.junk (kernelRun_A c i arg1 harg1 arg2 harg2 arg3 harg3 arg4 harg4 arg5 harg5 arg6 harg6 arg7 harg7 arg8 harg8 hc x0 x1 x2 x3 x4 x5).2.1)

/-- That piece covers the scratch. -/
theorem scover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) (y : S10000x128.Idx) :
    ∃ pc ∈ (kernelRun_A c i arg1 harg1 arg2 harg2 arg3 harg3 arg4 harg4 arg5 harg5 arg6 harg6 arg7 harg7 arg8 harg8 hc x0 x1 x2 x3 x4 x5).2.1, y ∈ pc.1.set :=
  View.cover_of_tiledL (kernelRun_A c i arg1 harg1 arg2 harg2 arg3 harg3 arg4 harg4 arg5 harg5 arg6 harg6 arg7 harg7 arg8 harg8 hc x0 x1 x2 x3 x4 x5).2.1 S10000x128.size (by sl_kernel_rfl) y

/-- The output block's buffer after a later point, the scratch holding `xs`. -/
def out_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) : Vec F S2x200x128 .f32 :=
  VO6.read (Elt F) (VO6.writes (Elt F) VO6.junk (kernelRun_B c i arg1 harg1 arg2 harg2 arg3 harg3 arg4 harg4 arg5 harg5 arg6 harg6 arg7 harg7 arg8 harg8 hc x0 x1 x2 x3 x4 x5 xs).1)

theorem cover_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) (y : S2x200x128.Idx) :
    ∃ pc ∈ (kernelRun_B c i arg1 harg1 arg2 harg2 arg3 harg3 arg4 harg4 arg5 harg5 arg6 harg6 arg7 harg7 arg8 harg8 hc x0 x1 x2 x3 x4 x5 xs).1, y ∈ pc.1.set :=
  View.cover_of_tiledL (kernelRun_B c i arg1 harg1 arg2 harg2 arg3 harg3 arg4 harg4 arg5 harg5 arg6 harg6 arg7 harg7 arg8 harg8 hc x0 x1 x2 x3 x4 x5 xs).1 S1x200x128.size (by sl_kernel_rfl) y

/-! ## Point by point -/

/-- The first grid point. -/
abbrev t0 : Fin cfg0.N := ⟨0, by rw [show cfg0.N = 25 from N_0]; exact Nat.zero_lt_succ _⟩

/-- What the scratch holds from the first point on. -/
def scr (c : Dev nD) : Vec F S10000x128 .bf16 :=
  sout_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) ((hcond0 t0).mpr rfl) (iblk m c 0 t0) (iblk m c 1 t0) (iblk m c 2 t0) (iblk m c 3 t0) (iblk m c 4 t0) (iblk m c 5 t0)

/-- What the output block's buffer holds after the body at point `t`. -/
def out6 (c : Dev nD) (t : Fin cfg0.N) : Vec F S2x200x128 .f32 :=
  if h : t.val = 0 then
    out_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t)
  else
    out_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c)

theorem out6_first (c : Dev nD) (t : Fin cfg0.N) (h : t.val = 0) :
    out6 m c t = out_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) := by
  unfold out6; rw [dif_pos h]

theorem out6_later (c : Dev nD) (t : Fin cfg0.N) (h : ¬t.val = 0) :
    out6 m c t = out_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c) := by
  unfold out6; rw [dif_neg h]

/-- The invariant before position `n`: before the first point the class's (the scratch at anything); afterwards the
    scratch at the transformed features, and the generator register at some state. -/
def PhiS (c : Dev nD) : ℕ → sProp 𝕄
  | 0 => Pipeline.ΦA spec0 c
  | _ + 1 => iprop(iprop(owns (c : Thread nD τ) scM fullShare (scr m c)) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(owns (c : Thread nD τ) scM fullShare (scr m c)) ∗ (∃ r, prngReg c r)) := rfl
theorem PhiS_pos (c : Dev nD) (n : ℕ) (hz : n ≠ 0) :
    PhiS m c n = iprop(iprop(owns (c : Thread nD τ) scM fullShare (scr m c)) ∗ (∃ r, prngReg c r)) := by
  cases n with
  | zero => exact absurd rfl hz
  | succ n => rfl

/-! ## The proof data -/

/-- The proof data of the pipeline on core `c`. The adjacency array is behind two windows: each holds it at one half
    of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

theorem leaves0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leaves4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after4]
theorem leaves5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after5]
theorem leaves6 (c : Dev nD) (t : Fin cfg0.N) :
    (dats m 0 c).leavesExact 6 t = owns (c : Thread nD τ) (ms6 t) fullShare (out6 m c t) := by
  rw [show (dats m 0 c).leavesExact 6 t = owns (c : Thread nD τ) (ms6 t) fullShare ((dats m 0 c).after 6 t) from by
    unfold Dat.leavesExact; rw [live6 t], after6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: each input's buffer holds its block; at the first point the scratch is at anything and
    is left at the transformed features, at a later point it holds them and is handed back; the output's buffer ends
    at the point's two slabs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ]
  rw [leaves0, leaves1, leaves2, leaves3, leaves4, leaves5, leaves6]
  by_cases h0 : t.val = 0
  · obtain rfl : t = t0 := Fin.ext h0
    rw [out6_first m c t0 rfl, PhiS_castSucc m c t0, PhiS_zero m c _ rfl, PhiA0_eq]
    unfold out_A scr sout_A; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ ((hcond0 t0).mpr rfl) (iblk m c 0 t0) (iblk m c 1 t0) (iblk m c 2 t0) (iblk m c 3 t0) (iblk m c 4 t0) (iblk m c 5 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover_A c _ _ _ _ _ _ _ _ _ _ _ _ _ _ _ _ _ _ _ _ _ _ _ _)
  · rw [out6_later m c t h0, PhiS_castSucc m c t, PhiS_pos m c _ h0]
    unfold out_B; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ _ _ (fun hh => h0 ((hcond0 t).mp hh)) (iblk m c 0 t) (iblk m c 1 t) (iblk m c 2 t) (iblk m c 3 t) (iblk m c 4 t) (iblk m c 5 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover_B c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the pipeline is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA0_eq]
  iintro ⟨HS, Hg⟩
  isplitl [HS]
  · iexists _; iexact HS
  iexact Hg

end Cert.Kernel.Hand

end
-- ==== Proof.K.Frame.lean ====
import proofs.«164299_g56822417326211_cont_9to1_m_1158_12_alg».proof.Proof.K.Data
import Idealize.ShloMosaic.Lib.Pipeline.Value
import Idealize.ShloMosaic.Lib.StableHlo.Run

/-!
# The run of the program with its proof data, and the frame

Every weakly fair execution terminates without a fault; the five argument arrays end as they were launched: three are
arrays of input windows, which the pipeline never writes; the other two (the adjacency and the bias, which the
kernel reads through reshaped copies) are touched by no operation of the program.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes before the pipeline write neither `x` nor the weights. -/
theorem V_x (c : Dev nD) : V m c main_arg0 = m ((c : Thread nD τ).loc main_arg0) := rfl
theorem V_wo (c : Dev nD) : V m c main_arg2 = m ((c : Thread nD τ).loc main_arg2) := rfl
theorem V_wn (c : Dev nD) : V m c main_arg3 = m ((c : Thread nD τ).loc main_arg3) := rfl

theorem dats_q_rest (c : Dev nD) (w : Fin 7) (h : 2 ≤ w.val) : (dats m 0 c).q w = fullShare := by
  match w, h with
  | ⟨2, _⟩, _ => rfl
  | ⟨3, _⟩, _ => rfl
  | ⟨4, _⟩, _ => rfl
  | ⟨5, _⟩, _ => rfl
  | ⟨6, _⟩, _ => rfl

/-- The run, with every window's array and the program's result named. -/
theorem run_dats : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ r.2.mem ((c.tc : Thread nD τ).loc main_arg1) = m ((c.tc : Thread nD τ).loc main_arg1)
      ∧ r.2.mem ((c.tc : Thread nD τ).loc main_arg4) = m ((c.tc : Thread nD τ).loc main_arg4)
      ∧ r.2.mem ((c.tc : Thread nD τ).loc main_v0)
          = StableHlo.after hostOps1 (Wout m c ((dats m 0 c).arrAt 6 cfg0.N)) (Proc.devRef .tc main_v0)) :=
  run_shared m ρ (dats m) (A_eq m) (fun _ => rfl) (fun _ => rfl) (dats_q_rest m) (fun _ _ => rfl)
    (body_obligation m) (hin m) (hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (((dats m 0 c).arrAt_in 2 rfl _).trans ((A_eq m c 2).trans (V_x m c))),
     (h c).2.1,
     ((h c).1 3).trans (((dats m 0 c).arrAt_in 3 rfl _).trans ((A_eq m c 3).trans (V_wo m c))),
     ((h c).1 4).trans (((dats m 0 c).arrAt_in 4 rfl _).trans ((A_eq m c 4).trans (V_wn m c))),
     (h c).2.2.1⟩) (run_dats m ρ)

end Cert.Kernel.Hand

end
-- ==== Proof.KI.Runs.lean ====
import proofs.«164299_g56822417326211_cont_9to1_m_1158_12_alg».proof.Proof.Gen.KernelIdeal.Launch
import proofs.«164299_g56822417326211_cont_9to1_m_1158_12_alg».proof.Proof.Gen.KernelIdeal.Skeleton
import proofs.«164299_g56822417326211_cont_9to1_m_1158_12_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# What the two cases of the kernel body share

The body branches once, on whether the grid point is the first: only there does it compute the transformed features
of every node and store them into its scratch buffer.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: the point is the first. -/
abbrev cond0 (i : grid0.Coords) : Prop :=
  (Scalar.cmpi .ne (Scalar.extui (Scalar.cmpi .eq (BitVec.ofNat 32 (i 0).val) 0#32)) 0#32) = 1#1

/-- It holds at point 0 only: decided over the 25 points. -/
theorem hcond0 : ∀ t : Fin cfg0.N, cond0 (grid0.coords t) ↔ t.val = 0 :=
  (by decide +kernel : ∀ t : Fin grid0.N, cond0 (grid0.coords t) ↔ t.val = 0)

end Cert.KernelIdeal.Hand

end
-- ==== Proof.KI.RunA.lean ====
import proofs.«164299_g56822417326211_cont_9to1_m_1158_12_alg».proof.Proof.KI.Runs

/-!
# The kernel body at the first grid point

At point 0 the branch is taken: the body loads all of `x` and the neighbour weights, stores their product (rounded
to half precision) over the whole scratch buffer, then loads it back with the own weights, the bias row, two row
blocks of `x` and the two adjacency blocks, and stores the two row slabs of the output block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block's buffer and in the scratch buffer at the first point, with the
    proof that from whole staging buffers — the six inputs at their contents, the output's and the scratch at
    anything — the body runs to the continuation holding the inputs as they were and the two written buffers with
    those pieces written. -/
noncomputable def kernelRun_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) :
    Σ' (L6 : List (View.Piece (Elt F) S2x200x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8) K } := by
  refine ⟨?_, ?_, fun E K => ?run⟩
  case run =>
    simp only [cc0__main_kernel_eq_skeleton]; unfold cc0__main_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H8

end Cert.KernelIdeal.Hand

end
-- ==== Proof.KI.RunB.lean ====
import proofs.«164299_g56822417326211_cont_9to1_m_1158_12_alg».proof.Proof.KI.RunA

/-!
# The kernel body at a later grid point

After point 0 the branch is not taken: the body loads the scratch buffer as the first point left it, the own weights,
the bias row, two row blocks of `x` and the two adjacency blocks, and stores the two row slabs of the output block;
the scratch buffer is handed back as it was found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block's buffer at a later point, with the proof that from whole staging
    buffers — the six inputs and the scratch at their contents, the output's at anything — the body runs to the
    continuation holding the inputs and the scratch as they were and the output's buffer with those pieces written. -/
noncomputable def kernelRun_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) :
    { L6 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ owns (c : Thread nD τ) arg8 fullShare xs) -∗ K ⟨⟩))
          ⊢ wp frame (wpE (defs₀ (F := F)) Variants.none c none) E (cc0__main_kernel i arg1 harg1 arg2 harg2 arg3 harg3 arg4 harg4 arg5 harg5 arg6 harg6 arg7 harg7 arg8 harg8) K } := by
  refine ⟨?_, fun E K => ?run⟩
  case run =>
    simp only [cc0__main_kernel_eq_skeleton]; unfold cc0__main_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact H8

end Cert.KernelIdeal.Hand

end
-- ==== Proof.KI.Launch.lean ====
import proofs.«164299_g56822417326211_cont_9to1_m_1158_12_alg».proof.Proof.Gen.KernelIdeal.Launch
import proofs.«164299_g56822417326211_cont_9to1_m_1158_12_alg».proof.Proof.Gen.KernelIdeal.Points
import Idealize.ShloMosaic.Lib.Pipeline.FrameBody
import Idealize.ShloMosaic.Lib.Pipeline.FrameSuffix

/-!
# The run of the program for any proof data of its one pipeline

The adjacency array, viewed as two slabs of 5000 rows, is handed to the kernel through two input windows, so the
two windows' arrays are one buffer: each window holds it at one half of the full share. Every other window's array
is a buffer of its own, held whole. @main reshapes two arguments, runs the pipeline, and reshapes the pipeline's
result array into the program's result.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the pipeline is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The contents the last reshape starts from: the entry contents with the pipeline's result array at `X`. -/
def Wout (c : Dev nD) (X : Buf (Elt F) ((c : Thread nD τ).loc main_call0_v2)) : Valuation τ sig (Elt F) :=
  Function.update (V0 m c) (Proc.devRef .tc main_call0_v2) X

/-! ## @main around the pipeline -/

/-- The reshapes allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is two reshapes, the pipeline, one reshape: it reduces to the pipeline continued by the last reshape, at the
    contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays at the pipeline's entry -/

/-- A window's array is a whole buffer: its points-to is over every element. -/
theorem win_pt {c : Dev nD} (dat : Dat τ (Elt F) Unit ℕ (UR sig nD τ) ℕ cfg0 c) (w : Fin 7)
    (G : Buf (Elt F) ((cfg0.win w).arr.view.loc (c.tc : Thread nD τ))) :
    (((cfg0.win w).arr.view.loc (c.tc : Thread nD τ)) ↦[(cfg0.win w).arr.view.set]{dat.share w} G : sProp 𝕄)
      = (((c.tc : Thread nD τ).loc (Pipeline.arrRef spec0 w)) ↦{dat.share w} G) := by
  rw [(arr_whole0 w).set_eq_univ]

/-- An input window's array is held at the share the proof data name, -/
theorem share_in {c : Dev nD} (dat : Dat τ (Elt F) Unit ℕ (UR sig nD τ) ℕ cfg0 c) (w : Fin 7) (h : (cfg0.win w).isOut = false) :
    dat.share w = dat.q w := by
  unfold Dat.share; rw [h]; rfl
/-- and an output window's at the full share. -/
theorem share_out {c : Dev nD} (dat : Dat τ (Elt F) Unit ℕ (UR sig nD τ) ℕ cfg0 c) (w : Fin 7) (h : (cfg0.win w).isOut = true) :
    dat.share w = fullShare := by
  unfold Dat.share; rw [if_pos h]

/-- The windows' arrays one by one, each a whole buffer at its share. -/
theorem arrays_open {c : Dev nD} (dat : Dat τ (Elt F) Unit ℕ (UR sig nD τ) ℕ cfg0 c)
    (G : (w : Fin 7) → Buf (Elt F) ((cfg0.win w).arr.view.loc (c.tc : Thread nD τ))) :
    (dat.arrays G : sProp 𝕄)
      = iprop((((c.tc : Thread nD τ).loc main_call0_v0) ↦{dat.q 0} G 0) ∗ (((c.tc : Thread nD τ).loc main_call0_v0) ↦{dat.q 1} G 1)
          ∗ (((c.tc : Thread nD τ).loc main_arg0) ↦{dat.q 2} G 2) ∗ (((c.tc : Thread nD τ).loc main_arg2) ↦{dat.q 3} G 3)
          ∗ (((c.tc : Thread nD τ).loc main_arg3) ↦{dat.q 4} G 4) ∗ (((c.tc : Thread nD τ).loc main_call0_v1) ↦{dat.q 5} G 5)
          ∗ (((c.tc : Thread nD τ).loc main_call0_v2) ↦{fullShare} G 6)) := by
  unfold Dat.arrays
  rw [bigSep_W0, win_pt dat 0, win_pt dat 1, win_pt dat 2, win_pt dat 3, win_pt dat 4, win_pt dat 5, win_pt dat 6,
    share_in dat 0 rfl, share_in dat 1 rfl, share_in dat 2 rfl, share_in dat 3 rfl, share_in dat 4 rfl, share_in dat 5 rfl,
    share_out dat 6 rfl]

/-- The six buffers behind the seven windows' arrays, one by one. -/
theorem arrBufs_open (c : Dev nD) (W : (b : Ref sig .tc) → Buf (Elt F) ((c.tc : Thread nD τ).loc b)) :
    (Pipeline.arrBufs spec0 c W : sProp 𝕄)
      = iprop((((c.tc : Thread nD τ).loc main_call0_v0) ↦{fullShare} W main_call0_v0)
          ∗ (((c.tc : Thread nD τ).loc main_arg0) ↦{fullShare} W main_arg0) ∗ (((c.tc : Thread nD τ).loc main_arg2) ↦{fullShare} W main_arg2)
          ∗ (((c.tc : Thread nD τ).loc main_arg3) ↦{fullShare} W main_arg3) ∗ (((c.tc : Thread nD τ).loc main_call0_v1) ↦{fullShare} W main_call0_v1)
          ∗ (((c.tc : Thread nD τ).loc main_call0_v2) ↦{fullShare} W main_call0_v2)) := by
  unfold Pipeline.arrBufs
  exact bigSep_eq_bigSepL_of_eq [main_call0_v0, main_arg0, main_arg2, main_arg3, main_call0_v1, main_call0_v2] (by decide) (by decide) _

/-- The buffers behind the arrays, whole at the entry contents, are the proof data's arrays at entry: the adjacency
    buffer, which two input windows read, split into its two halves. -/
theorem hsplit (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 7), 2 ≤ w.val → (dats 0 c).q w = fullShare) (c : Dev nD) :
    (Pipeline.arrBufs spec0 c (V m c) : sProp 𝕄) ⊢ (dats 0 c).arrays ((dats 0 c).arrAt · 0) := by
  rw [arrBufs_open, arrays_open (dats 0 c), hq0 c, hq1 c, hq c 2 (by decide), hq c 3 (by decide), hq c 4 (by decide), hq c 5 (by decide)]
  rw [show (dats 0 c).arrAt 0 0 = V m c main_call0_v0 from hA c 0, show (dats 0 c).arrAt 1 0 = V m c main_call0_v0 from hA c 1,
    show (dats 0 c).arrAt 2 0 = V m c main_arg0 from hA c 2, show (dats 0 c).arrAt 3 0 = V m c main_arg2 from hA c 3,
    show (dats 0 c).arrAt 4 0 = V m c main_arg3 from hA c 4, show (dats 0 c).arrAt 5 0 = V m c main_call0_v1 from hA c 5,
    show (dats 0 c).arrAt 6 0 = V m c main_call0_v2 from hA c 6]
  iintro ⟨H0, H2, H3, H4, H5, H6⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  isplitl [H4]; · iexact H4
  isplitl [H5]; · iexact H5
  iexact H6

/-! ## The reshape after the pipeline -/

/-- The contents of a buffer once the last reshape has run from the pipeline's exit. -/
abbrev Vend (dats : (p : Fin 1) → (c : Dev nD) → Dat τ (Elt F) Unit ℕ (UR sig nD τ) ℕ (cfgs p) c) (c : Dev nD) (b : Ref sig .tc) :
    Buf (Elt F) ((c : Thread nD τ).loc b) :=
  StableHlo.after hostOps1 (Wout m c ((dats 0 c).arrAt 6 cfg0.N)) (Proc.devRef .tc b)

/-- The two buffers the last reshape touches: the pipeline's result array, which it reads, and the program's result. -/
abbrev tailSet : Finset (DevRef τ sig) := {Proc.devRef .tc main_call0_v2, Proc.devRef .tc main_v0}

theorem hostOps1_bufs : ∀ ops ∈ ([hostOps1] : List (List (HloOp τ sig (Elt F)))), ∀ op ∈ ops, op.bufs ⊆ tailSet := by
  intro ops hops op hop
  rw [List.mem_singleton] at hops; subst hops
  rw [List.mem_singleton] at hop; subst hop
  exact Finset.Subset.refl _

theorem hostOps1_fresh' : ∀ ops ∈ ([hostOps1] : List (List (HloOp τ sig (Elt F)))), ∀ op ∈ ops, op.fresh = ∅ := by
  intro ops hops op hop
  rw [List.mem_singleton] at hops; subst hops
  exact (List.forall_iff_forall_mem.mp hostOps1_fresh) op hop

/-- The reshape writes the program's result only. -/
theorem hostOps1_writes (b : Ref sig .tc) (h : b ≠ main_v0) :
    ∀ op ∈ (hostOps1 : List (HloOp τ sig (Elt F))), Proc.devRef (τ := τ) .tc b ∉ op.writes := by
  intro op hop
  rw [List.mem_singleton] at hop; subst hop
  rw [StableHlo.reshape_writes, Finset.mem_singleton]
  exact StableHlo.devRef_ne_of_ne h

/-- The two buffers held whole, one by one. -/
theorem held_tail (c : Dev nD) (W : Valuation τ sig (Elt F)) :
    (StableHlo.held (c.tc : Thread nD τ) tailSet W : sProp 𝕄)
      = iprop((((c.tc : Thread nD τ).loc main_call0_v2) ↦{fullShare} W (Proc.devRef .tc main_call0_v2))
          ∗ (((c.tc : Thread nD τ).loc main_v0) ↦{fullShare} W (Proc.devRef .tc main_v0))) := by
  unfold StableHlo.held tailSet
  rw [bigSep_insert (fun h => StableHlo.devRef_ne_of_ne (by decide : main_call0_v2 ≠ main_v0) (Finset.mem_singleton.mp h)), bigSep_singleton]
  rfl

theorem Wout_v2 (c : Dev nD) (X : Buf (Elt F) ((c : Thread nD τ).loc main_call0_v2)) :
    Wout m c X (Proc.devRef .tc main_call0_v2) = X := by
  unfold Wout; exact Function.update_self _ _ _

theorem Wout_of_ne (c : Dev nD) (X : Buf (Elt F) ((c : Thread nD τ).loc main_call0_v2)) (b : Ref sig .tc) (h : b ≠ main_call0_v2) :
    Wout m c X (Proc.devRef .tc b) = V m c b := by
  unfold Wout; exact Function.update_of_ne (StableHlo.devRef_ne_of_ne h) _ _

/-- A buffer the reshape neither writes nor reads from the pipeline's result keeps its entry contents. -/
theorem Vend_keep (dats : (p : Fin 1) → (c : Dev nD) → Dat τ (Elt F) Unit ℕ (UR sig nD τ) ℕ (cfgs p) c) (c : Dev nD) (b : Ref sig .tc)
    (h1 : b ≠ main_v0) (h2 : b ≠ main_call0_v2) : Vend m dats c b = V m c b := by
  show StableHlo.after hostOps1 _ _ = _
  rw [StableHlo.after_of_forall_not_mem hostOps1 _ (hostOps1_writes b h1), Wout_of_ne m c _ b h2]

/-- The pipeline's result array is as the pipeline left it. -/
theorem Vend_v2 (dats : (p : Fin 1) → (c : Dev nD) → Dat τ (Elt F) Unit ℕ (UR sig nD τ) ℕ (cfgs p) c) (c : Dev nD) :
    Vend m dats c main_call0_v2 = (dats 0 c).arrAt 6 cfg0.N := by
  show StableHlo.after hostOps1 _ _ = _
  rw [StableHlo.after_of_forall_not_mem hostOps1 _ (hostOps1_writes main_call0_v2 (by decide)), Wout_v2]

set_option backward.isDefEq.respectTransparency.types false in
/-- From the pipeline's exit the reshape runs within the pipeline's result array and the program's result, and hands
    the arrays back unchanged, the bypassing buffers at the contents after it. -/
theorem htail (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (Vend m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq, arrays_open (dats 0 c),
    Vend_keep m dats c main_arg1 (by decide) (by decide), Vend_keep m dats c main_arg4 (by decide) (by decide)]
  iintro ⟨Hk, Hb, ⟨A0, A1, A2, A3, A4, A5, A6⟩, ⟨R1, R4, Rv⟩⟩
  iapply (Pipeline.wp_seqs_then (fun q => (cfgs q).toPCfg (Val := Elt F)) defs₀ Variants.none c tailSet [] [hostOps1] hostOps1_bufs hostOps1_fresh'
    (Wout m c ((dats 0 c).arrAt 6 cfg0.N))) $$ [Hb A6 Rv]
  · rw [held_tail, Wout_v2, Wout_of_ne m c _ main_v0 (by decide)]
    isplitl [Hb]; · iexact Hb
    isplitl [A6]; · iexact A6
    iexact Rv
  iintro H
  rw [Pipeline.chain_nil, wp_pure, held_tail]
  imodintro
  iapply Hk
  icases H with ⟨-, A6, Rv⟩
  rw [show StableHlo.after ([hostOps1] : List (List (HloOp τ sig (Elt F)))).flatten (Wout m c ((dats 0 c).arrAt 6 cfg0.N)) (Proc.devRef .tc main_call0_v2)
      = (dats 0 c).arrAt 6 cfg0.N from Vend_v2 m dats c]
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R4]; · iexact R4
  iexact Rv

/-! ## The final memory -/

/-- A buffer that is not scoped and is no window's array bypasses the pipeline. -/
theorem mem_rest (b : Ref sig .tc) (hs : b.isScoped = false) (ha : ∀ w : Fin 7, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h
    exact k.elim0⟩

/-- The two reshapes before the pipeline write their own results only: any other buffer enters the pipeline at its
    launch contents. -/
theorem V_keep (c : Dev nD) (b : Ref sig .tc) (h0 : b ≠ main_call0_v0) (h1 : b ≠ main_call0_v1) :
    V m c b = m ((c.tc : Thread nD τ).loc b) := by
  show StableHlo.after hostOps0 _ _ = _
  refine StableHlo.after_of_forall_not_mem hostOps0 _ fun op hop => ?_
  simp only [List.mem_cons, List.mem_nil_iff, or_false] at hop
  rcases hop with rfl | rfl
  · rw [StableHlo.reshape_writes, Finset.mem_singleton]; exact StableHlo.devRef_ne_of_ne h0
  · rw [StableHlo.reshape_writes, Finset.mem_singleton]; exact StableHlo.devRef_ne_of_ne h1

/-! ## The run -/

set_option backward.isDefEq.respectTransparency.types false in
/-- Every weakly fair execution of @main terminates; each window's array ends at what the proof data compute
    (`Dat.arrAt` after the last point), the two arguments no window stages are unchanged, and the program's
    result is the last reshape of the pipeline's result array. -/
theorem run_shared
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin 7), 2 ≤ w.val → (dats 0 c).q w = fullShare)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w, r.2.mem (((cfg0).spec w).arr.view.loc (c.tc : Thread nD τ)) = (dats 0 c).arrAt w cfg0.N)
      ∧ r.2.mem ((c.tc : Thread nD τ).loc main_arg1) = m ((c.tc : Thread nD τ).loc main_arg1)
      ∧ r.2.mem ((c.tc : Thread nD τ).loc main_arg4) = m ((c.tc : Thread nD τ).loc main_arg4)
      ∧ r.2.mem ((c.tc : Thread nD τ).loc main_v0)
          = StableHlo.after hostOps1 (Wout m c ((dats 0 c).arrAt 6 cfg0.N)) (Proc.devRef .tc main_v0)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq0 hq1 hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats)
    (QY := fun c s => ∀ b ∈ Pipeline.restRefsP sig Pipeline.Prefetch.none spec0, s.mem ((c.tc : Thread nD τ).loc b) = Vend m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m dats c) s')
      isplitl [HU] <;> iassumption)
    (hQ := fun s h c => ⟨(h c).1,
      ((h c).2.2 main_arg1 (mem_rest _ rfl (by decide))).trans
        ((Vend_keep m dats c main_arg1 (by decide) (by decide)).trans (V_keep m c main_arg1 (by decide) (by decide))),
      ((h c).2.2 main_arg4 (mem_rest _ rfl (by decide))).trans
        ((Vend_keep m dats c main_arg4 (by decide) (by decide)).trans (V_keep m c main_arg4 (by decide) (by decide))),
      (h c).2.2 main_v0 (mem_rest _ rfl (by decide))⟩)

end Cert.KernelIdeal.Hand

end
-- ==== Proof.KI.Data.lean ====
import proofs.«164299_g56822417326211_cont_9to1_m_1158_12_alg».proof.Proof.KI.RunB
import proofs.«164299_g56822417326211_cont_9to1_m_1158_12_alg».proof.Proof.KI.Launch

/-!
# The pipeline's proof data and the body obligation

What every staging buffer holds after the body at each grid point: an input's buffer its block of the array (the body
only reads it); the output's buffer the two row slabs the body stores. The scratch buffer holds, from the first point
on, the transformed features of every node, which the first point stores and no later point changes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the pipeline passes the body, and the scratch -/

abbrev ms0 (t : Fin cfg0.N) : Memref sig .tc .vmem S1x200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x200x128 .f32 := win0_6.stage (cfg0.slots t 6)
abbrev hs6 (t : Fin cfg0.N) : (ms6 t).IsWhole := hstage0_6 ((cfg0.slots t 6).cast nbuf0_6)
/-- The scratch operand: a whole scoped buffer of the kernel's own. -/
abbrev scM : Memref sig .tc .vmem S10000x128 .bf16 := Memref.whole cc0_scratch0
/-- One staging buffer of the output window, through which its contents are stated. -/
abbrev VO6 : View sig .tc .vmem S2x200x128 .f32 := (Memref.whole cc0_stg6_0 : Memref sig .tc .vmem S2x200x128 .f32).view
/-- The scratch as a view. -/
abbrev VS : View sig .tc .vmem S10000x128 .bf16 := (scM).view

/-- The class's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl

/-! ## What each case leaves in the two buffers it writes -/

/-- The output block's buffer after the first point: the body's pieces read back. -/
def out_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) : Vec F S2x200x128 .f32 :=
  VO6.read (Elt F) (VO6.writes (Elt F) VO6.junk (kernelRun_A c i arg1 harg1 arg2 harg2 arg3 harg3 arg4 harg4 arg5 harg5 arg6 harg6 arg7 harg7 arg8 harg8 hc x0 x1 x2 x3 x4 x5).1)

/-- Those pieces cover the block: two slabs along the leading axis. -/
theorem cover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) (y : S2x200x128.Idx) :
    ∃ pc ∈ (kernelRun_A c i arg1 harg1 arg2 harg2 arg3 harg3 arg4 harg4 arg5 harg5 arg6 harg6 arg7 harg7 arg8 harg8 hc x0 x1 x2 x3 x4 x5).1, y ∈ pc.1.set :=
  View.cover_of_tiledL (kernelRun_A c i arg1 harg1 arg2 harg2 arg3 harg3 arg4 harg4 arg5 harg5 arg6 harg6 arg7 harg7 arg8 harg8 hc x0 x1 x2 x3 x4 x5).1 S1x200x128.size (by sl_kernel_rfl) y

/-- The scratch after the first point: the one piece stored over it, read back. -/
def sout_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) : Vec F S10000x128 .bf16 :=
  VS.read (Elt F) (VS.writes (Elt F) VS.junk (kernelRun_A c i arg1 harg1 arg2 harg2 arg3 harg3 arg4 harg4 arg5 harg5 arg6 harg6 arg7 harg7 arg8 harg8 hc x0 x1 x2 x3 x4 x5).2.1)

/-- That piece covers the scratch. -/
theorem scover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i)
    (x0 x1 : Vec F S1x200x10000 .f32) (x2 : Vec F S10000x128 .f32) (x3 x4 : Vec F S128x128 .f32) (x5 : Vec F S1x128 .f32) (y : S10000x128.Idx) :
    ∃ pc ∈ (kernelRun_A c i arg1 harg1 arg2 harg2 arg3 harg3 arg4 harg4 arg5 harg5 arg6 harg6 arg7 harg7 arg8 harg8 hc x0 x1 x2 x3 x4 x5).2.1, y ∈ pc.1.set :=
  View.cover_of_tiledL (kernelRun_A c i arg1 harg1 arg2 harg2 arg3 harg3 arg4 harg4 arg5 harg5 arg6 harg6 arg7 harg7 arg8 harg8 hc x0 x1 x2 x3 x4 x5).2.1 S10000x128.size (by sl_kernel_rfl) y

/-- The output block's buffer after a later point, the scratch holding `xs`. -/
def out_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) : Vec F S2x200x128 .f32 :=
  VO6.read (Elt F) (VO6.writes (Elt F) VO6.junk (kernelRun_B c i arg1 harg1 arg2 harg2 arg3 harg3 arg4 harg4 arg5 harg5 arg6 harg6 arg7 harg7 arg8 harg8 hc x0 x1 x2 x3 x4 x5 xs).1)

theorem cover_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i)
    (x0 x1 : Vec F S1x200x10000 .f32) (x2 : Vec F S10000x128 .f32) (x3 x4 : Vec F S128x128 .f32) (x5 : Vec F S1x128 .f32) (xs : Vec F S10000x128 .bf16) (y : S2x200x128.Idx) :
    ∃ pc ∈ (kernelRun_B c i arg1 harg1 arg2 harg2 arg3 harg3 arg4 harg4 arg5 harg5 arg6 harg6 arg7 harg7 arg8 harg8 hc x0 x1 x2 x3 x4 x5 xs).1, y ∈ pc.1.set :=
  View.cover_of_tiledL (kernelRun_B c i arg1 harg1 arg2 harg2 arg3 harg3 arg4 harg4 arg5 harg5 arg6 harg6 arg7 harg7 arg8 harg8 hc x0 x1 x2 x3 x4 x5 xs).1 S1x200x128.size (by sl_kernel_rfl) y

/-! ## Point by point -/

/-- The first grid point. -/
abbrev t0 : Fin cfg0.N := ⟨0, by rw [show cfg0.N = 25 from N_0]; exact Nat.zero_lt_succ _⟩

/-- What the scratch holds from the first point on. -/
def scr (c : Dev nD) : Vec F S10000x128 .bf16 :=
  sout_A c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) ((hcond0 t0).mpr rfl) (iblk m c 0 t0) (iblk m c 1 t0) (iblk m c 2 t0) (iblk m c 3 t0) (iblk m c 4 t0) (iblk m c 5 t0)

/-- What the output block's buffer holds after the body at point `t`. -/
def out6 (c : Dev nD) (t : Fin cfg0.N) : Vec F S2x200x128 .f32 :=
  if h : t.val = 0 then
    out_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t)
  else
    out_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c)

theorem out6_first (c : Dev nD) (t : Fin cfg0.N) (h : t.val = 0) :
    out6 m c t = out_A c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) := by
  unfold out6; rw [dif_pos h]

theorem out6_later (c : Dev nD) (t : Fin cfg0.N) (h : ¬t.val = 0) :
    out6 m c t = out_B c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c) := by
  unfold out6; rw [dif_neg h]

/-- The invariant before position `n`: before the first point the class's (the scratch at anything); afterwards the
    scratch at the transformed features, and the generator register at some state. -/
def PhiS (c : Dev nD) : ℕ → sProp 𝕄
  | 0 => Pipeline.ΦA spec0 c
  | _ + 1 => iprop(iprop(owns (c : Thread nD τ) scM fullShare (scr m c)) ∗ (∃ r, prngReg c r))

theorem PhiS_zero (c : Dev nD) (n : ℕ) (hz : n = 0) : PhiS m c n = Pipeline.ΦA spec0 c := by subst hz; rfl
theorem PhiS_succ (c : Dev nD) (n : ℕ) :
    PhiS m c (n + 1) = iprop(iprop(owns (c : Thread nD τ) scM fullShare (scr m c)) ∗ (∃ r, prngReg c r)) := rfl
theorem PhiS_pos (c : Dev nD) (n : ℕ) (hz : n ≠ 0) :
    PhiS m c n = iprop(iprop(owns (c : Thread nD τ) scM fullShare (scr m c)) ∗ (∃ r, prngReg c r)) := by
  cases n with
  | zero => exact absurd rfl hz
  | succ n => rfl

/-! ## The proof data -/

/-- The proof data of the pipeline on core `c`. The adjacency array is behind two windows: each holds it at one half
    of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

theorem leaves0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leaves4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after4]
theorem leaves5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after5]
theorem leaves6 (c : Dev nD) (t : Fin cfg0.N) :
    (dats m 0 c).leavesExact 6 t = owns (c : Thread nD τ) (ms6 t) fullShare (out6 m c t) := by
  rw [show (dats m 0 c).leavesExact 6 t = owns (c : Thread nD τ) (ms6 t) fullShare ((dats m 0 c).after 6 t) from by
    unfold Dat.leavesExact; rw [live6 t], after6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: each input's buffer holds its block; at the first point the scratch is at anything and
    is left at the transformed features, at a later point it holds them and is handed back; the output's buffer ends
    at the point's two slabs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ]
  rw [leaves0, leaves1, leaves2, leaves3, leaves4, leaves5, leaves6]
  by_cases h0 : t.val = 0
  · obtain rfl : t = t0 := Fin.ext h0
    rw [out6_first m c t0 rfl, PhiS_castSucc m c t0, PhiS_zero m c _ rfl, PhiA0_eq]
    unfold out_A scr sout_A; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t0) _ _ _ _ _ _ _ _ _ _ _ _ _ _ _ _ ((hcond0 t0).mpr rfl) (iblk m c 0 t0) (iblk m c 1 t0) (iblk m c 2 t0) (iblk m c 3 t0) (iblk m c 4 t0) (iblk m c 5 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover_A c _ _ _ _ _ _ _ _ _ _ _ _ _ _ _ _ _ _ _ _ _ _ _ _)
  · rw [out6_later m c t h0, PhiS_castSucc m c t, PhiS_pos m c _ h0]
    unfold out_B; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ _ _ (fun hh => h0 ((hcond0 t).mp hh)) (iblk m c 0 t) (iblk m c 1 t) (iblk m c 2 t) (iblk m c 3 t) (iblk m c 4 t) (iblk m c 5 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover_B c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the pipeline is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 25 := N_0; omega), PhiA0_eq]
  iintro ⟨HS, Hg⟩
  isplitl [HS]
  · iexists _; iexact HS
  iexact Hg

end Cert.KernelIdeal.Hand

end
-- ==== Proof.KI.Frame.lean ====
import proofs.«164299_g56822417326211_cont_9to1_m_1158_12_alg».proof.Proof.KI.Data
import Idealize.ShloMosaic.Lib.Pipeline.Value
import Idealize.ShloMosaic.Lib.StableHlo.Run

/-!
# The run of the program with its proof data, and the frame

Every weakly fair execution terminates without a fault; the five argument arrays end as they were launched: three are
arrays of input windows, which the pipeline never writes; the other two (the adjacency and the bias, which the
kernel reads through reshaped copies) are touched by no operation of the program.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes before the pipeline write neither `x` nor the weights. -/
theorem V_x (c : Dev nD) : V m c main_arg0 = m ((c : Thread nD τ).loc main_arg0) := rfl
theorem V_wo (c : Dev nD) : V m c main_arg2 = m ((c : Thread nD τ).loc main_arg2) := rfl
theorem V_wn (c : Dev nD) : V m c main_arg3 = m ((c : Thread nD τ).loc main_arg3) := rfl

theorem dats_q_rest (c : Dev nD) (w : Fin 7) (h : 2 ≤ w.val) : (dats m 0 c).q w = fullShare := by
  match w, h with
  | ⟨2, _⟩, _ => rfl
  | ⟨3, _⟩, _ => rfl
  | ⟨4, _⟩, _ => rfl
  | ⟨5, _⟩, _ => rfl
  | ⟨6, _⟩, _ => rfl

/-- The run, with every window's array and the program's result named. -/
theorem run_dats : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ r.2.mem ((c.tc : Thread nD τ).loc main_arg1) = m ((c.tc : Thread nD τ).loc main_arg1)
      ∧ r.2.mem ((c.tc : Thread nD τ).loc main_arg4) = m ((c.tc : Thread nD τ).loc main_arg4)
      ∧ r.2.mem ((c.tc : Thread nD τ).loc main_v0)
          = StableHlo.after hostOps1 (Wout m c ((dats m 0 c).arrAt 6 cfg0.N)) (Proc.devRef .tc main_v0)) :=
  run_shared m ρ (dats m) (A_eq m) (fun _ => rfl) (fun _ => rfl) (dats_q_rest m) (fun _ _ => rfl)
    (body_obligation m) (hin m) (hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 2).trans (((dats m 0 c).arrAt_in 2 rfl _).trans ((A_eq m c 2).trans (V_x m c))),
     (h c).2.1,
     ((h c).1 3).trans (((dats m 0 c).arrAt_in 3 rfl _).trans ((A_eq m c 3).trans (V_wo m c))),
     ((h c).1 4).trans (((dats m 0 c).arrAt_in 4 rfl _).trans ((A_eq m c 4).trans (V_wn m c))),
     (h c).2.2.1⟩) (run_dats m ρ)

end Cert.KernelIdeal.Hand

end
-- ==== Proof.Spec.lean ====
import Idealize.ShloMosaic.PureOps.Ideal
import Idealize.ShloMosaic.Lib.ValueIdx

/-!
# The graph convolution, entry by entry

For node features `x` (10000 nodes, 128 features), a dense adjacency `adj`, two weight matrices and a bias, the layer's
output at node `r` and output feature `c` is

  ( Σ_k adj(r, k) · ( Σ_j x(k, j) · wn(j, c) )  +  Σ_j x(r, j) · wo(j, c) )  +  b(c)

over the extended reals: the neighbours' transformed features weighted by the adjacency row, the node's own
transformed features, the bias, added in this order.
-/

noncomputable section

namespace Cert.Spec

open Idealize.ShloMosaic Idealize.ShloMosaic.ValueIdx

/-- The transformed features of node `k`: row `k` of `x · wn`. -/
def H (x : (⟨2, ![10000, 128]⟩ : Shape).Idx → EReal) (wn : (⟨2, ![128, 128]⟩ : Shape).Idx → EReal)
    (k : Fin 10000) (c : Fin 128) : EReal :=
  ∑ j : Fin 128, x (ix2 k j) * wn (ix2 j c)

/-- The layer's output at node `r`, feature `c`. -/
def G (x : (⟨2, ![10000, 128]⟩ : Shape).Idx → EReal) (adj : (⟨2, ![10000, 10000]⟩ : Shape).Idx → EReal)
    (wo wn : (⟨2, ![128, 128]⟩ : Shape).Idx → EReal) (b : (⟨1, ![128]⟩ : Shape).Idx → EReal)
    (r : Fin 10000) (c : Fin 128) : EReal :=
  (∑ k : Fin 10000, adj (ix2 r k) * H x wn k c + ∑ j : Fin 128, x (ix2 r j) * wo (ix2 j c)) + b (ix1 c)

end Cert.Spec

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KI.Payloads.lean ====
/-
  The kernel body's stored values, read at an index, at the ideal values.

  Each value the body stores is a pure function of the values it loaded. Read entry by entry over the extended
  reals (every format is the extended reals, a change of format is the identity, every operation is exact):

  * the scratch buffer holds the transformed features: entry (k, c) is  Σ_j x(k, j) · wn(j, c);
  * each of the two row slabs of the output block holds, at (0, r, c),
        ( Σ_k a(0, r, k) · h(k, c)  +  Σ_j xs(r, j) · wo(j, c) )  +  b(0, c)
    for its own block a of the adjacency and its own block xs of the features.

  The proofs push the index through the pointwise operations (which hold by unfolding) and use one small lemma
  per operation that is not pointwise: a product into the zero accumulator is a sum over the contracted axis; a
  cast that drops or adds a leading unit axis keeps the other coordinates; a cast to the same shape is the
  identity; the one row of the bias broadcast over the rows reads its column.
-/
import proofs.«164299_g56822417326211_cont_9to1_m_1158_12_alg».proof.Proof.Gen.KernelIdeal.Skeleton
import proofs.«164299_g56822417326211_cont_9to1_m_1158_12_alg».proof.Proof.Spec
import proofs.«164299_g56822417326211_cont_9to1_m_1158_12_alg».proof.Proof.LibDotFormats
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The three products, each into the zero accumulator, at an entry -/

/-- Features by the neighbour weights: entry (k, c) is the sum over the 128 features. -/
theorem prod_nbr (x : FVec Ideal S10000x128 .f32) (wn : FVec Ideal S128x128 .f32) (k : Fin 10000) (c : Fin 128) :
    matmul (F := Ideal) dot_S10000x128_S128x128_S10000x128_1_0_0_1_n_n none x wn
        (constant (F := Ideal) S10000x128 .f32 0x00000000#32) (ix2 k c)
      = ∑ j : Fin 128, x (ix2 k j) * wn (ix2 j c) :=
  Cert.LibDotFormats.matmul_cols_zero_apply (A := 10000) (K := 128) (B := 128)
    dot_S10000x128_S128x128_S10000x128_1_0_0_1_n_n rfl rfl rfl rfl rfl rfl none x wn k c

/-- A block of 200 feature rows by the own weights: entry (r, c) is the sum over the 128 features. -/
theorem prod_own (xs : FVec Ideal S200x128 .f32) (wo : FVec Ideal S128x128 .f32) (r : Fin 200) (c : Fin 128) :
    matmul (F := Ideal) dot_S200x128_S128x128_S200x128_1_0_0_1_n_n none xs wo
        (constant (F := Ideal) S200x128 .f32 0x00000000#32) (ix2 r c)
      = ∑ j : Fin 128, xs (ix2 r j) * wo (ix2 j c) :=
  Cert.LibDotFormats.matmul_cols_zero_apply (A := 200) (K := 128) (B := 128)
    dot_S200x128_S128x128_S200x128_1_0_0_1_n_n rfl rfl rfl rfl rfl rfl none xs wo r c

/-- A block of 200 adjacency rows, given with a leading unit axis and narrowed to half precision, by the
    transformed features: entry (r, c) is the sum over the 10000 nodes of the block's (0, r, k) entry times
    the features' (k, c) entry. The narrowing is the identity and the cast drops the unit axis. -/
theorem prod_adj (a : FVec Ideal S1x200x10000 .f32) (h : FVec Ideal S10000x128 .bf16)
    (hc : S1x200x10000.ShapeCasts S200x10000) (hb : FTy.bits .bf16 < FTy.bits .f32) (r : Fin 200) (c : Fin 128) :
    matmul (F := Ideal) dot_S200x10000_S10000x128_S200x128_1_0_0_1_n_n none
        (truncf (F := Ideal) .bf16 (shapeCast S200x10000 a hc) hb) h
        (constant (F := Ideal) S200x128 .f32 0x00000000#32) (ix2 r c)
      = ∑ k : Fin 10000, a (ix3 (0 : Fin 1) r k) * h (ix2 k c) := by
  refine (Cert.LibDotFormats.matmul_cols_zero_apply (A := 200) (K := 10000) (B := 128)
    dot_S200x10000_S10000x128_S200x128_1_0_0_1_n_n rfl rfl rfl rfl rfl rfl none
    (truncf (F := Ideal) .bf16 (shapeCast S200x10000 a hc) hb) h r c).trans ?_
  refine Finset.sum_congr rfl fun k _ => ?_
  exact congrArg (fun t : EReal => t * h (ix2 k c)) (shapeCast_1ab_ab_apply (a := 200) (b := 10000) a hc r k)

/-! ## The bias row over the rows -/

/-- The bias row, cast to its own shape and broadcast over 200 rows, reads its column at every row. -/
theorem bias_rows (b : FVec Ideal S1x128 .f32) (hs : S1x128.ShapeCasts S1x128) (hbr : S1x128.Broadcasts S200x128)
    (r : Fin 200) (c : Fin 128) :
    broadcastTo S200x128 (shapeCast S1x128 b hs) hbr (ix2 r c) = b (ix2 (0 : Fin 1) c) := by
  rw [shapeCast_self]
  exact broadcastTo_1b_ab_apply (a := 200) (b := 128) b hbr r c

/-! ## The stored values at an index -/

/-- The scratch buffer's contents: the transformed features. -/
theorem pay2_apply (x : Vec Ideal S10000x128 .f32) (wn : Vec Ideal S128x128 .f32) (k : Fin 10000) (c : Fin 128) :
    k0_pay2 (F := Ideal) x wn (ix2 k c) = Cert.Spec.H x wn k c := by
  unfold k0_pay2
  rw [shapeCast_self]
  exact prod_nbr x wn k c

/-- Row slab 0 of the output block. -/
theorem pay4_apply (h : Vec Ideal S10000x128 .bf16) (wo : Vec Ideal S128x128 .f32) (b : Vec Ideal S1x128 .f32)
    (xt : Vec Ideal S200x128 .f32) (a : Vec Ideal S1x200x10000 .f32) (r : Fin 200) (c : Fin 128) :
    k0_pay4 (F := Ideal) h wo b xt a (ix3 (0 : Fin 1) r c)
      = (∑ k : Fin 10000, a (ix3 (0 : Fin 1) r k) * h (ix2 k c) + ∑ j : Fin 128, xt (ix2 r j) * wo (ix2 j c))
          + b (ix2 (0 : Fin 1) c) := by
  unfold k0_pay4 k0_pay3
  dsimp only
  refine (shapeCast_ab_1ab_apply (a := 200) (b := 128) _ _ (0 : Fin 1) r c).trans ?_
  rw [addf_apply, addf_apply, prod_adj, prod_own, bias_rows]

/-- Row slab 1 of the output block: the two products, then the bias row. -/
theorem pay1_apply (h : Vec Ideal S10000x128 .bf16) (wo : Vec Ideal S128x128 .f32) (b : Vec Ideal S1x128 .f32)
    (xb : Vec Ideal S200x128 .f32) (a : Vec Ideal S1x200x10000 .f32) (r : Fin 200) (c : Fin 128) :
    k0_pay1 (F := Ideal) (k0_pay3 b) (k0_pay5 h wo xb a) (ix3 (0 : Fin 1) r c)
      = (∑ k : Fin 10000, a (ix3 (0 : Fin 1) r k) * h (ix2 k c) + ∑ j : Fin 128, xb (ix2 r j) * wo (ix2 j c))
          + b (ix2 (0 : Fin 1) c) := by
  unfold k0_pay1 k0_pay3 k0_pay5
  dsimp only
  refine (shapeCast_ab_1ab_apply (a := 200) (b := 128) _ _ (0 : Fin 1) r c).trans ?_
  rw [addf_apply, addf_apply, prod_adj, prod_own, bias_rows]

end Cert.KernelIdeal.Hand

end
-- ==== Proof.KI.Pieces.lean ====
/-
  What the kernel body leaves in the two buffers it writes, piece by piece, and the output block's buffer after a
  grid point read at an index.

  Part 1, for any float values. The body's run leaves lists of pieces (a rectangle of the buffer with the value
  stored through it). The scratch gets one piece over the whole buffer: the transformed features. The output
  block's buffer gets two: slab 0 first, slab 1 last, disjoint along the leading axis, so an index of either slab
  reads that slab's stored value. The values are the body's pure functions of what it loaded: whole buffers read
  their contents; the two loads at a computed row offset read 200 consecutive rows of the features; the scratch read
  back after the store reads what was stored.

  Part 2, at the ideal values. After point t the output block's buffer holds, at (p, r, cc),
      ( Σ_k A_p(0, r, k) · H(k, cc)  +  Σ_j x(p·5000 + t·200 + r, j) · wo(j, cc) )  +  b(0, cc)
  with A_0, A_1 the point's two adjacency blocks, H the transformed features Σ_j x(k, j) · wn(j, cc), and x, wo,
  wn, b the point's blocks of the features, the weights and the bias. At a later point the scratch holds what the
  first point stored; the features' and the neighbour weights' windows have one block, so that is the transformed
  features of the later point's own blocks.
-/
import proofs.«164299_g56822417326211_cont_9to1_m_1158_12_alg».proof.Proof.KI.Data
import proofs.«164299_g56822417326211_cont_9to1_m_1158_12_alg».proof.Proof.KI.Payloads
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-! ## Zero offsets, however spelt -/

theorem hz2 : (![0, 0] : Fin 2 → Nat) = fun _ => 0 :=
  funext fun a => by match a with | ⟨0, _⟩ => rfl | ⟨1, _⟩ => rfl

theorem hz3 : (![0, 0, 0] : Fin 3 → Nat) = fun _ => 0 :=
  funext fun a => by match a with | ⟨0, _⟩ => rfl | ⟨1, _⟩ => rfl | ⟨2, _⟩ => rfl

/-! ## Two row slabs written one after the other, read at an index

The output block has two slabs along its leading axis. The body stores slab 0 first and slab 1 last, each through
the unit-stride rectangle of one slab's sizes at leading offset 0 or 1. Of the contents the two stores leave, an
index of slab 1 reads the last store's payload, and an index of slab 0, which the last store does not touch, reads
the first store's. -/

section Slabs

variable {Val : EltTy → Type} [∀ e, Nonempty (Val e)]

/-- Slab 1's rectangle places its index (0, r, cc) at (1, r, cc). -/
theorem emb_slab1 (inb : ∀ a, (![1, 0, 0] : Fin 3 → Nat) a + (![1, 200, 128] : Fin 3 → Nat) a ≤ S2x200x128.size a)
    (r : Fin 200) (cc : Fin 128) :
    (Rect.unit (s := S2x200x128) ![1, 0, 0] ![1, 200, 128] inb).emb (ix3 (0 : Fin 1) r cc) = ix3 (1 : Fin 2) r cc :=
  funext fun a => Fin.ext (by
    match a with
    | ⟨0, _⟩ => rfl
    | ⟨1, _⟩ => show 0 + 1 * r.val = r.val; omega
    | ⟨2, _⟩ => show 0 + 1 * cc.val = cc.val; omega)

/-- Slab 0's rectangle places its index (0, r, cc) at (0, r, cc). -/
theorem emb_slab0 (inb : ∀ a, (![0, 0, 0] : Fin 3 → Nat) a + (![1, 200, 128] : Fin 3 → Nat) a ≤ S2x200x128.size a)
    (r : Fin 200) (cc : Fin 128) :
    (Rect.unit (s := S2x200x128) ![0, 0, 0] ![1, 200, 128] inb).emb (ix3 (0 : Fin 1) r cc) = ix3 (0 : Fin 2) r cc :=
  funext fun a => Fin.ext (by
    match a with
    | ⟨0, _⟩ => rfl
    | ⟨1, _⟩ => show 0 + 1 * r.val = r.val; omega
    | ⟨2, _⟩ => show 0 + 1 * cc.val = cc.val; omega)

/-- An index of slab 1 reads the last store's payload. -/
theorem canon_slab1 (inb1 : ∀ a, (![1, 0, 0] : Fin 3 → Nat) a + (![1, 200, 128] : Fin 3 → Nat) a ≤ S2x200x128.size a)
    (inb0 : ∀ a, (![0, 0, 0] : Fin 3 → Nat) a + (![1, 200, 128] : Fin 3 → Nat) a ≤ S2x200x128.size a)
    (w1 w0 : S1x200x128.Idx → Val .f32) (r : Fin 200) (cc : Fin 128) :
    View.canon [(⟨Rect.unit (s := S2x200x128) ![1, 0, 0] ![1, 200, 128] inb1, w1⟩ : View.Piece Val S2x200x128 .f32),
        ⟨Rect.unit (s := S2x200x128) ![0, 0, 0] ![1, 200, 128] inb0, w0⟩] (ix3 (1 : Fin 2) r cc)
      = w1 (ix3 (0 : Fin 1) r cc) := by
  rw [← emb_slab1 inb1 r cc]
  exact View.canon_cons_emb (Rect.unit (s := S2x200x128) ![1, 0, 0] ![1, 200, 128] inb1) w1 _ (ix3 (0 : Fin 1) r cc)

/-- An index of slab 0 is outside the last store's rectangle and reads the first store's payload. -/
theorem canon_slab0 (inb1 : ∀ a, (![1, 0, 0] : Fin 3 → Nat) a + (![1, 200, 128] : Fin 3 → Nat) a ≤ S2x200x128.size a)
    (inb0 : ∀ a, (![0, 0, 0] : Fin 3 → Nat) a + (![1, 200, 128] : Fin 3 → Nat) a ≤ S2x200x128.size a)
    (w1 w0 : S1x200x128.Idx → Val .f32) (r : Fin 200) (cc : Fin 128) :
    View.canon [(⟨Rect.unit (s := S2x200x128) ![1, 0, 0] ![1, 200, 128] inb1, w1⟩ : View.Piece Val S2x200x128 .f32),
        ⟨Rect.unit (s := S2x200x128) ![0, 0, 0] ![1, 200, 128] inb0, w0⟩] (ix3 (0 : Fin 2) r cc)
      = w0 (ix3 (0 : Fin 1) r cc) := by
  have hout : ix3 (0 : Fin 2) r cc ∉ (Rect.unit (s := S2x200x128) ![1, 0, 0] ![1, 200, 128] inb1).set := fun hm => by
    have h := (Rect.mem_set_unit (s := S2x200x128) (off := ![1, 0, 0]) (size := ![1, 200, 128]) (inb := inb1)
      (i := ix3 (0 : Fin 2) r cc)).mp hm (0 : Fin 3)
    have h0 : (1 : Nat) ≤ 0 := h.1
    omega
  refine (View.canon_cons_of_not_mem
    (⟨Rect.unit (s := S2x200x128) ![1, 0, 0] ![1, 200, 128] inb1, w1⟩ : View.Piece Val S2x200x128 .f32)
    [(⟨Rect.unit (s := S2x200x128) ![0, 0, 0] ![1, 200, 128] inb0, w0⟩ : View.Piece Val S2x200x128 .f32)] hout).trans ?_
  rw [← emb_slab0 inb0 r cc]
  exact View.canon_cons_emb (Rect.unit (s := S2x200x128) ![0, 0, 0] ![1, 200, 128] inb0) w0 _ (ix3 (0 : Fin 1) r cc)

end Slabs

/-! ## A block of 200 feature rows -/

/-- The 200 rows of the features a load at row offset off 0 (column offset off 1) reads. -/
def xrows (x2 : Vec F S10000x128 .f32) (off : Fin 2 → Nat) (h : ∀ a, off a + S200x128.size a ≤ S10000x128.size a) :
    Vec F S200x128 .f32 :=
  View.ld x2 (Rect.unit (s := S10000x128) off S200x128.size h)

/-- Its entry (r, j) is the features' entry (off 0 + r, off 1 + j). -/
theorem xrows_apply (x2 : Vec F S10000x128 .f32) (off : Fin 2 → Nat) (h : ∀ a, off a + S200x128.size a ≤ S10000x128.size a)
    (r : Fin 200) (j : Fin 128) (hr : off 0 + r.val < 10000) (hj : off 1 + j.val < 128) :
    xrows x2 off h (ix2 r j) = x2 (ix2 (⟨off 0 + r.val, hr⟩ : Fin 10000) (⟨off 1 + j.val, hj⟩ : Fin 128)) := by
  unfold xrows
  show x2 ((Rect.unit (s := S10000x128) off S200x128.size h).idx (ix2 r j)) = _
  refine congrArg x2 (funext fun a => Fin.ext ?_)
  match a with
  | ⟨0, _⟩ => show off 0 + 1 * r.val = off 0 + r.val; omega
  | ⟨1, _⟩ => show off 1 + 1 * j.val = off 1 + j.val; omega

/-! ## What each found list of pieces is -/

/-- The scratch after the first point: the transformed features, stored over the whole buffer. -/
theorem sout_A_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i) (x0 x1 : Vec F S1x200x10000 .f32) (x2 : Vec F S10000x128 .f32) (x3 x4 : Vec F S128x128 .f32) (x5 : Vec F S1x128 .f32) :
    sout_A c i arg1 harg1 arg2 harg2 arg3 harg3 arg4 harg4 arg5 harg5 arg6 harg6 arg7 harg7 arg8 harg8 hc x0 x1 x2 x3 x4 x5 = k0_pay2 x2 x4 := by
  unfold sout_A
  rw [View.read_writes_junk_eq_canon]
  unfold kernelRun_A
  dsimp only
  sl_unfold_words
  rw [View.canon_unit_zero (S := S10000x128) hz2]
  simp only [View.readAt_eq_ld, harg3.read_unread, harg5.read_unread, View.ld_unit_zero (S := S10000x128) hz2,
    View.ld_unit_zero (S := S128x128) hz2]

/-- The output block's buffer after the first point, slab 0. -/
theorem out_A_slab0 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i) (x0 x1 : Vec F S1x200x10000 .f32) (x2 : Vec F S10000x128 .f32) (x3 x4 : Vec F S128x128 .f32) (x5 : Vec F S1x128 .f32) (r : Fin 200) (cc : Fin 128) :
    out_A c i arg1 harg1 arg2 harg2 arg3 harg3 arg4 harg4 arg5 harg5 arg6 harg6 arg7 harg7 arg8 harg8 hc x0 x1 x2 x3 x4 x5 (ix3 (0 : Fin 2) r cc)
      = k0_pay4 (k0_pay2 x2 x4) x3 x5 (xrows x2 (k0_off1 i) (k0_off1_inb i)) x0 (ix3 (0 : Fin 1) r cc) := by
  unfold out_A
  rw [View.read_writes_junk_eq_canon]
  unfold kernelRun_A
  dsimp only
  sl_unfold_words
  refine (canon_slab0 _ _ _ _ r cc).trans ?_
  simp only [View.readAt_eq_ld, harg1.read_unread, harg2.read_unread, harg3.read_unread, harg4.read_unread,
    harg5.read_unread, harg6.read_unread, View.ld_unit_zero (S := S10000x128) hz2, View.ld_unit_zero (S := S128x128) hz2,
    View.ld_unit_zero (S := S1x128) hz2, View.ld_unit_zero (S := S1x200x10000) hz3,
    View.readCov_unit_zero (S := S10000x128) _ hz2]
  rfl

/-- The output block's buffer after the first point, slab 1. -/
theorem out_A_slab1 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : cond0 i) (x0 x1 : Vec F S1x200x10000 .f32) (x2 : Vec F S10000x128 .f32) (x3 x4 : Vec F S128x128 .f32) (x5 : Vec F S1x128 .f32) (r : Fin 200) (cc : Fin 128) :
    out_A c i arg1 harg1 arg2 harg2 arg3 harg3 arg4 harg4 arg5 harg5 arg6 harg6 arg7 harg7 arg8 harg8 hc x0 x1 x2 x3 x4 x5 (ix3 (1 : Fin 2) r cc)
      = k0_pay1 (k0_pay3 x5) (k0_pay5 (k0_pay2 x2 x4) x3 (xrows x2 (k0_off2 i) (k0_off2_inb i)) x1) (ix3 (0 : Fin 1) r cc) := by
  unfold out_A
  rw [View.read_writes_junk_eq_canon]
  unfold kernelRun_A
  dsimp only
  sl_unfold_words
  refine (canon_slab1 _ _ _ _ r cc).trans ?_
  simp only [View.readAt_eq_ld, harg1.read_unread, harg2.read_unread, harg3.read_unread, harg4.read_unread,
    harg5.read_unread, harg6.read_unread, View.ld_unit_zero (S := S10000x128) hz2, View.ld_unit_zero (S := S128x128) hz2,
    View.ld_unit_zero (S := S1x128) hz2, View.ld_unit_zero (S := S1x200x10000) hz3,
    View.readCov_unit_zero (S := S10000x128) _ hz2]
  rfl

/-- The output block's buffer after a later point, the scratch holding xs: slab 0. -/
theorem out_B_slab0 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i) (x0 x1 : Vec F S1x200x10000 .f32) (x2 : Vec F S10000x128 .f32) (x3 x4 : Vec F S128x128 .f32) (x5 : Vec F S1x128 .f32) (xs : Vec F S10000x128 .bf16) (r : Fin 200) (cc : Fin 128) :
    out_B c i arg1 harg1 arg2 harg2 arg3 harg3 arg4 harg4 arg5 harg5 arg6 harg6 arg7 harg7 arg8 harg8 hc x0 x1 x2 x3 x4 x5 xs (ix3 (0 : Fin 2) r cc)
      = k0_pay4 xs x3 x5 (xrows x2 (k0_off1 i) (k0_off1_inb i)) x0 (ix3 (0 : Fin 1) r cc) := by
  unfold out_B
  rw [View.read_writes_junk_eq_canon]
  unfold kernelRun_B
  dsimp only
  sl_unfold_words
  refine (canon_slab0 _ _ _ _ r cc).trans ?_
  simp only [View.readAt_eq_ld, harg1.read_unread, harg2.read_unread, harg3.read_unread, harg4.read_unread,
    harg5.read_unread, harg6.read_unread, harg8.read_unread, View.ld_unit_zero (S := S10000x128) hz2,
    View.ld_unit_zero (S := S128x128) hz2, View.ld_unit_zero (S := S1x128) hz2, View.ld_unit_zero (S := S1x200x10000) hz3]
  rfl

/-- The output block's buffer after a later point, the scratch holding xs: slab 1. -/
theorem out_B_slab1 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2x200x128 .f32) (harg7 : arg7.IsWhole) (arg8 : Memref sig .tc .vmem S10000x128 .bf16) (harg8 : arg8.IsWhole) (hc : ¬cond0 i) (x0 x1 : Vec F S1x200x10000 .f32) (x2 : Vec F S10000x128 .f32) (x3 x4 : Vec F S128x128 .f32) (x5 : Vec F S1x128 .f32) (xs : Vec F S10000x128 .bf16) (r : Fin 200) (cc : Fin 128) :
    out_B c i arg1 harg1 arg2 harg2 arg3 harg3 arg4 harg4 arg5 harg5 arg6 harg6 arg7 harg7 arg8 harg8 hc x0 x1 x2 x3 x4 x5 xs (ix3 (1 : Fin 2) r cc)
      = k0_pay1 (k0_pay3 x5) (k0_pay5 xs x3 (xrows x2 (k0_off2 i) (k0_off2_inb i)) x1) (ix3 (0 : Fin 1) r cc) := by
  unfold out_B
  rw [View.read_writes_junk_eq_canon]
  unfold kernelRun_B
  dsimp only
  sl_unfold_words
  refine (canon_slab1 _ _ _ _ r cc).trans ?_
  simp only [View.readAt_eq_ld, harg1.read_unread, harg2.read_unread, harg3.read_unread, harg4.read_unread,
    harg5.read_unread, harg6.read_unread, harg8.read_unread, View.ld_unit_zero (S := S10000x128) hz2,
    View.ld_unit_zero (S := S128x128) hz2, View.ld_unit_zero (S := S1x128) hz2, View.ld_unit_zero (S := S1x200x10000) hz3]
  rfl

/-! ## The blocks of a grid point, by name

Each input window's block at point t, at the literal shape of the window's block (the windows are not cut at the
array's end). -/

section Blocks

variable (m : (ℓ : Loc nD τ sig) → Buf (Elt F) ℓ)

/-- The block of the adjacency's upper half: 200 rows. -/
abbrev blkAT (c : Dev nD) (t : Fin cfg0.N) : Vec F S1x200x10000 .f32 := iblk m c 0 t
/-- The block of the adjacency's lower half: 200 rows. -/
abbrev blkAB (c : Dev nD) (t : Fin cfg0.N) : Vec F S1x200x10000 .f32 := iblk m c 1 t
/-- The features, whole at every point. -/
abbrev blkX (c : Dev nD) (t : Fin cfg0.N) : Vec F S10000x128 .f32 := iblk m c 2 t
/-- The own weights, whole at every point. -/
abbrev blkWo (c : Dev nD) (t : Fin cfg0.N) : Vec F S128x128 .f32 := iblk m c 3 t
/-- The neighbour weights, whole at every point. -/
abbrev blkWn (c : Dev nD) (t : Fin cfg0.N) : Vec F S128x128 .f32 := iblk m c 4 t
/-- The bias row, whole at every point. -/
abbrev blkB (c : Dev nD) (t : Fin cfg0.N) : Vec F S1x128 .f32 := iblk m c 5 t

/-- The features' window has one block: every point reads the same elements. -/
theorem blkX_const (c : Dev nD) (t : Fin cfg0.N) : blkX m c t = blkX m c t0 := rfl

/-- The neighbour weights' window has one block. -/
theorem blkWn_const (c : Dev nD) (t : Fin cfg0.N) : blkWn m c t = blkWn m c t0 := rfl

/-- What the scratch holds from the first point on: the transformed features, of the blocks of any point. -/
theorem scr_eq (c : Dev nD) (t : Fin cfg0.N) : scr m c = k0_pay2 (blkX m c t) (blkWn m c t) := by
  rw [blkX_const m c t, blkWn_const m c t]
  unfold scr
  exact sout_A_eq c (grid0.coords t0) (ms0 t0) (hs0 t0) (ms1 t0) (hs1 t0) (ms2 t0) (hs2 t0) (ms3 t0) (hs3 t0) (ms4 t0) (hs4 t0)
    (ms5 t0) (hs5 t0) (ms6 t0) (hs6 t0) scM (Memref.isWhole_whole _) ((hcond0 t0).mpr rfl)
    (iblk m c 0 t0) (iblk m c 1 t0) (iblk m c 2 t0) (iblk m c 3 t0) (iblk m c 4 t0) (iblk m c 5 t0)

/-- The output block's buffer after point t, slab 0: the first store's payload over the point's blocks. -/
theorem out6_slab0 (c : Dev nD) (t : Fin cfg0.N) (r : Fin 200) (cc : Fin 128) :
    out6 m c t (ix3 (0 : Fin 2) r cc)
      = k0_pay4 (k0_pay2 (blkX m c t) (blkWn m c t)) (blkWo m c t) (blkB m c t)
          (xrows (blkX m c t) (k0_off1 (grid0.coords t)) (k0_off1_inb (grid0.coords t))) (blkAT m c t) (ix3 (0 : Fin 1) r cc) := by
  by_cases h : t.val = 0
  · rw [out6_first m c t h]
    exact out_A_slab0 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) r cc
  · rw [out6_later m c t h, ← scr_eq m c t]
    exact out_B_slab0 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c) r cc

/-- The output block's buffer after point t, slab 1: the last store's payload over the point's blocks. -/
theorem out6_slab1 (c : Dev nD) (t : Fin cfg0.N) (r : Fin 200) (cc : Fin 128) :
    out6 m c t (ix3 (1 : Fin 2) r cc)
      = k0_pay1 (k0_pay3 (blkB m c t)) (k0_pay5 (k0_pay2 (blkX m c t) (blkWn m c t)) (blkWo m c t)
          (xrows (blkX m c t) (k0_off2 (grid0.coords t)) (k0_off2_inb (grid0.coords t))) (blkAB m c t)) (ix3 (0 : Fin 1) r cc) := by
  by_cases h : t.val = 0
  · rw [out6_first m c t h]
    exact out_A_slab1 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h) (iblk m c 0 t) (iblk m c 1 t) (iblk m c 2 t) (iblk m c 3 t) (iblk m c 4 t) (iblk m c 5 t) r cc
  · rw [out6_later m c t h, ← scr_eq m c t]
    exact out_B_slab1 c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun hh => h ((hcond0 t).mp hh)) (iblk m c 0 t) (iblk m c 1 t) (iblk m c 2 t) (iblk m c 3 t) (iblk m c 4 t) (iblk m c 5 t) (scr m c) r cc

end Blocks

/-! ## The rows the two dynamic loads read -/

/-- The grid has one axis: a point's coordinate is its position. -/
theorem coords0 : ∀ t : Fin cfg0.N, ((grid0.coords t) 0).val = t.val :=
  (by decide +kernel : ∀ t : Fin grid0.N, ((grid0.coords t) 0).val = t.val)

/-- Row r of slab p at point t is row p · 5000 + t · 200 + r of the features. -/
def rowIx (p : Fin 2) (t : Fin cfg0.N) (r : Fin 200) : Fin 10000 :=
  ⟨p.val * 5000 + t.val * 200 + r.val, by
    have ht : t.val < 25 := lt_of_lt_of_eq t.isLt N_0
    have hp := p.isLt; have hr := r.isLt; omega⟩

/-- The first dynamic load at point t reads rows t · 200 + r. -/
theorem xrows_off1 (x2 : Vec F S10000x128 .f32) (t : Fin cfg0.N) (r : Fin 200) (j : Fin 128) :
    xrows x2 (k0_off1 (grid0.coords t)) (k0_off1_inb (grid0.coords t)) (ix2 r j) = x2 (ix2 (rowIx 0 t r) j) := by
  unfold xrows
  show x2 ((Rect.unit (s := S10000x128) (k0_off1 (grid0.coords t)) S200x128.size (k0_off1_inb (grid0.coords t))).idx (ix2 r j)) = _
  refine congrArg x2 (funext fun a => Fin.ext ?_)
  have e : k0_off1 (grid0.coords t) = ![200 * ((grid0.coords t) 0).val, 0] := k0_off1_eq (grid0.coords t)
  have e0 := coords0 t
  match a with
  | ⟨0, _⟩ =>
    show (k0_off1 (grid0.coords t)) 0 + 1 * r.val = (0 : Fin 2).val * 5000 + t.val * 200 + r.val
    rw [e]
    show 200 * ((grid0.coords t) 0).val + 1 * r.val = (0 : Fin 2).val * 5000 + t.val * 200 + r.val
    rw [e0]
    show 200 * t.val + 1 * r.val = 0 * 5000 + t.val * 200 + r.val
    omega
  | ⟨1, _⟩ =>
    show (k0_off1 (grid0.coords t)) 1 + 1 * j.val = j.val
    rw [e]
    show 0 + 1 * j.val = j.val
    omega

/-- The second dynamic load at point t reads rows 5000 + t · 200 + r. -/
theorem xrows_off2 (x2 : Vec F S10000x128 .f32) (t : Fin cfg0.N) (r : Fin 200) (j : Fin 128) :
    xrows x2 (k0_off2 (grid0.coords t)) (k0_off2_inb (grid0.coords t)) (ix2 r j) = x2 (ix2 (rowIx 1 t r) j) := by
  unfold xrows
  show x2 ((Rect.unit (s := S10000x128) (k0_off2 (grid0.coords t)) S200x128.size (k0_off2_inb (grid0.coords t))).idx (ix2 r j)) = _
  refine congrArg x2 (funext fun a => Fin.ext ?_)
  have e : k0_off2 (grid0.coords t) = ![200 * ((grid0.coords t) 0).val + 5000, 0] := k0_off2_eq (grid0.coords t)
  have e0 := coords0 t
  match a with
  | ⟨0, _⟩ =>
    show (k0_off2 (grid0.coords t)) 0 + 1 * r.val = (1 : Fin 2).val * 5000 + t.val * 200 + r.val
    rw [e]
    show 200 * ((grid0.coords t) 0).val + 5000 + 1 * r.val = (1 : Fin 2).val * 5000 + t.val * 200 + r.val
    rw [e0]
    show 200 * t.val + 5000 + 1 * r.val = 1 * 5000 + t.val * 200 + r.val
    omega
  | ⟨1, _⟩ =>
    show (k0_off2 (grid0.coords t)) 1 + 1 * j.val = j.val
    rw [e]
    show 0 + 1 * j.val = j.val
    omega

/-! ## The output block's buffer after a point, at an index, at the ideal values -/

section AtIdeal

variable (m : (ℓ : Loc nD τ sig) → Buf (Elt Ideal) ℓ)

/-- Slab 0 after point t: the upper adjacency block against the transformed features, the point's own rows
    against the own weights, the bias. -/
theorem out6_apply0 (c : Dev nD) (t : Fin cfg0.N) (r : Fin 200) (cc : Fin 128) :
    out6 (F := Ideal) m c t (ix3 (0 : Fin 2) r cc)
      = (∑ k : Fin 10000, blkAT m c t (ix3 (0 : Fin 1) r k) * Cert.Spec.H (blkX m c t) (blkWn m c t) k cc
          + ∑ j : Fin 128, blkX m c t (ix2 (rowIx 0 t r) j) * blkWo m c t (ix2 j cc))
        + blkB m c t (ix2 (0 : Fin 1) cc) := by
  refine (out6_slab0 m c t r cc).trans ?_
  refine (pay4_apply (k0_pay2 (F := Ideal) (blkX m c t) (blkWn m c t)) (blkWo m c t) (blkB m c t)
    (xrows (blkX m c t) (k0_off1 (grid0.coords t)) (k0_off1_inb (grid0.coords t))) (blkAT m c t) r cc).trans ?_
  have e1 : ∀ k : Fin 10000, k0_pay2 (F := Ideal) (blkX m c t) (blkWn m c t) (ix2 k cc)
      = Cert.Spec.H (blkX m c t) (blkWn m c t) k cc := fun k => pay2_apply (blkX m c t) (blkWn m c t) k cc
  have e2 : ∀ j : Fin 128, xrows (blkX m c t) (k0_off1 (grid0.coords t)) (k0_off1_inb (grid0.coords t)) (ix2 r j)
      = blkX m c t (ix2 (rowIx 0 t r) j) := fun j => xrows_off1 (blkX m c t) t r j
  simp only [e1, e2]

/-- Slab 1 after point t: the lower adjacency block against the transformed features, the point's rows of the
    lower half against the own weights, the bias. -/
theorem out6_apply1 (c : Dev nD) (t : Fin cfg0.N) (r : Fin 200) (cc : Fin 128) :
    out6 (F := Ideal) m c t (ix3 (1 : Fin 2) r cc)
      = (∑ k : Fin 10000, blkAB m c t (ix3 (0 : Fin 1) r k) * Cert.Spec.H (blkX m c t) (blkWn m c t) k cc
          + ∑ j : Fin 128, blkX m c t (ix2 (rowIx 1 t r) j) * blkWo m c t (ix2 j cc))
        + blkB m c t (ix2 (0 : Fin 1) cc) := by
  refine (out6_slab1 m c t r cc).trans ?_
  refine (pay1_apply (k0_pay2 (F := Ideal) (blkX m c t) (blkWn m c t)) (blkWo m c t) (blkB m c t)
    (xrows (blkX m c t) (k0_off2 (grid0.coords t)) (k0_off2_inb (grid0.coords t))) (blkAB m c t) r cc).trans ?_
  have e1 : ∀ k : Fin 10000, k0_pay2 (F := Ideal) (blkX m c t) (blkWn m c t) (ix2 k cc)
      = Cert.Spec.H (blkX m c t) (blkWn m c t) k cc := fun k => pay2_apply (blkX m c t) (blkWn m c t) k cc
  have e2 : ∀ j : Fin 128, xrows (blkX m c t) (k0_off2 (grid0.coords t)) (k0_off2_inb (grid0.coords t)) (ix2 r j)
      = blkX m c t (ix2 (rowIx 1 t r) j) := fun j => xrows_off2 (blkX m c t) t r j
  simp only [e1, e2]

/-- Either slab after point t, at (p, r, cc). -/
theorem out6_apply (c : Dev nD) (t : Fin cfg0.N) (p : Fin 2) (r : Fin 200) (cc : Fin 128) :
    out6 (F := Ideal) m c t (ix3 p r cc)
      = (∑ k : Fin 10000, (if p.val = 0 then blkAT m c t else blkAB m c t) (ix3 (0 : Fin 1) r k)
              * Cert.Spec.H (blkX m c t) (blkWn m c t) k cc
          + ∑ j : Fin 128, blkX m c t (ix2 (rowIx p t r) j) * blkWo m c t (ix2 j cc))
        + blkB m c t (ix2 (0 : Fin 1) cc) := by
  by_cases hp : p = 0
  · subst hp
    rw [if_pos (show ((0 : Fin 2)).val = 0 from rfl)]
    exact out6_apply0 m c t r cc
  · have hp1 : p = 1 := Fin.ext (by
      have h2 := p.isLt
      have h0 : p.val ≠ 0 := fun h => hp (Fin.ext h)
      show p.val = 1
      omega)
    subst hp1
    rw [if_neg (show ¬((1 : Fin 2)).val = 0 from by decide)]
    exact out6_apply1 m c t r cc

end AtIdeal

end Cert.KernelIdeal.Hand

end
-- ==== Proof.KI.Blocks.lean ====
import proofs.«164299_g56822417326211_cont_9to1_m_1158_12_alg».proof.Proof.KI.Data
import Idealize.ShloMosaic.Lib.Pipeline.Value
import Idealize.ShloMosaic.Lib.ValueIdx
import Idealize.ShloMosaic.Lib.ValueLayout
import Idealize.ShloMosaic.Lib.StableHlo.Run

/-!
# The pipeline's input blocks as entries of the arguments

When the pipeline is entered the five arguments are as launched, the adjacency matrix has been laid out as two slabs
of 5000 rows, and the bias as one row. Row `R` of slab `p` is row `p · 5000 + R` of the adjacency matrix. At grid point
`t` the two adjacency windows hold rows `t · 200 … t · 200 + 199` of slab 0 and of slab 1; every other input window
holds its whole array.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- A grid point is below 25. -/
theorem t_lt (t : Fin cfg0.N) : t.val < 25 := lt_of_lt_of_eq t.isLt N_0

/-! ## The contents at entry -/

/-- No reshape writes the features: the pipeline finds them as launched. -/
theorem V_arg0 (c : Dev nD) : V m c main_arg0 = m ((c : Thread nD τ).loc main_arg0) := by
  show StableHlo.after hostOps0 (fun b => m (c, b)) (Proc.devRef .tc main_arg0) = _
  after_results
  try rfl
/-- Nor the adjacency matrix, -/
theorem V_arg1 (c : Dev nD) : V m c main_arg1 = m ((c : Thread nD τ).loc main_arg1) := by
  show StableHlo.after hostOps0 (fun b => m (c, b)) (Proc.devRef .tc main_arg1) = _
  after_results
  try rfl
/-- the own weights, -/
theorem V_arg2 (c : Dev nD) : V m c main_arg2 = m ((c : Thread nD τ).loc main_arg2) := by
  show StableHlo.after hostOps0 (fun b => m (c, b)) (Proc.devRef .tc main_arg2) = _
  after_results
  try rfl
/-- the neighbour weights, -/
theorem V_arg3 (c : Dev nD) : V m c main_arg3 = m ((c : Thread nD τ).loc main_arg3) := by
  show StableHlo.after hostOps0 (fun b => m (c, b)) (Proc.devRef .tc main_arg3) = _
  after_results
  try rfl
/-- or the bias. -/
theorem V_arg4 (c : Dev nD) : V m c main_arg4 = m ((c : Thread nD τ).loc main_arg4) := by
  show StableHlo.after hostOps0 (fun b => m (c, b)) (Proc.devRef .tc main_arg4) = _
  after_results
  try rfl

/-- The slabs hold the adjacency matrix in row-major order: entry `(p, R, k)` of the slabs is entry `(p · 5000 + R, k)`
    of the matrix. -/
theorem V_v0_at (c : Dev nD) (j : S2x5000x10000.Idx) (i : S10000x10000.Idx)
    (h0 : (i 0).val = (j 0).val * 5000 + (j 1).val) (h1 : (i 1).val = (j 2).val) :
    V m c main_call0_v0 j = m ((c : Thread nD τ).loc main_arg1) i := by
  have e : (V m c main_call0_v0 : S2x5000x10000.Idx → Elt F .f32)
      = shapeCast S2x5000x10000 (m ((c : Thread nD τ).loc main_arg1) : S10000x10000.Idx → Elt F .f32) shapeCasts_S10000x10000_S2x5000x10000 := by
    show StableHlo.after hostOps0 (fun b => m (c, b)) (Proc.devRef .tc main_call0_v0) = _
    after_results
    try rfl
  rw [e]
  refine shapeCast_apply _ _ j i ?_
  rw [Shape.rowMajor_val_two, Shape.rowMajor_val_three]
  show (i 0).val * 10000 + (i 1).val = ((j 0).val * 5000 + (j 1).val) * 10000 + (j 2).val
  rw [h0, h1]

theorem V_v0_apply (c : Dev nD) (p : Fin 2) (R : Fin 5000) (k : Fin 10000) :
    V m c main_call0_v0 (ix3 p R k) = m ((c : Thread nD τ).loc main_arg1) (ix2 ⟨p.val * 5000 + R.val, by omega⟩ k) :=
  V_v0_at m c _ _ rfl rfl

/-- The bias row holds the bias: entry `(0, cc)` of the row is entry `cc` of the bias. -/
theorem V_v1_at (c : Dev nD) (j : S1x128.Idx) (i : S128.Idx) (h : (i 0).val = (j 1).val) :
    V m c main_call0_v1 j = m ((c : Thread nD τ).loc main_arg4) i := by
  have e : (V m c main_call0_v1 : S1x128.Idx → Elt F .f32)
      = shapeCast S1x128 (m ((c : Thread nD τ).loc main_arg4) : S128.Idx → Elt F .f32) shapeCasts_S128_S1x128 := by
    show StableHlo.after hostOps0 (fun b => m (c, b)) (Proc.devRef .tc main_call0_v1) = _
    after_results
    try rfl
  rw [e]
  refine shapeCast_apply _ _ j i ?_
  rw [Shape.rowMajor_val_one, Shape.rowMajor_val_two]
  show (i 0).val = (j 0).val * 128 + (j 1).val
  have hj : (j 0).val < 1 := (j 0).isLt
  omega

theorem V_v1_apply (c : Dev nD) (cc : Fin 128) :
    V m c main_call0_v1 (ix2 (0 : Fin 1) cc) = m ((c : Thread nD τ).loc main_arg4) (ix1 cc) :=
  V_v1_at m c _ _ rfl

/-! ## The windows' block indices over the grid -/

/-- The first adjacency window is at slab 0, row block `t`. -/
theorem idx_w0 : ∀ t : Fin cfg0.N, win0_0.index t (0 : Fin 3) = 0 ∧ win0_0.index t (1 : Fin 3) = t.val ∧ win0_0.index t (2 : Fin 3) = 0 :=
  (by decide +kernel : ∀ t : Fin grid0.N, _)
/-- The second is at slab 1, row block `t`. -/
theorem idx_w1 : ∀ t : Fin cfg0.N, win0_1.index t (0 : Fin 3) = 1 ∧ win0_1.index t (1 : Fin 3) = t.val ∧ win0_1.index t (2 : Fin 3) = 0 :=
  (by decide +kernel : ∀ t : Fin grid0.N, _)
/-- Every other input window stays at its one block. -/
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)

/-! ## The input blocks, entry by entry -/

/-- Row `r` of the first adjacency block at point `t` is row `t · 200 + r` of the adjacency matrix. -/
theorem iblk0_apply (c : Dev nD) (t : Fin cfg0.N) (r : Fin 200) (k : Fin 10000) :
    iblk m c 0 t (ix3 (0 : Fin 1) r k)
      = m ((c : Thread nD τ).loc main_arg1) (ix2 ⟨t.val * 200 + r.val, by have := t_lt t; omega⟩ k) := by
  obtain ⟨e0, e1, e2⟩ := idx_w0 t
  unfold iblk
  rw [View.read_apply]
  show V m c main_call0_v0 (((cfg0.win 0).blk t).view.emb (ix3 (0 : Fin 1) r k)) = _
  refine V_v0_at m c _ _ ?_ ?_
  · show t.val * 200 + r.val = (win0_0.index t (0 : Fin 3) * 1 + 1 * 0) * 5000 + (win0_0.index t (1 : Fin 3) * 200 + 1 * r.val)
    rw [e0, e1]; omega
  · show k.val = win0_0.index t (2 : Fin 3) * 10000 + 1 * k.val
    rw [e2]; omega

/-- Row `r` of the second adjacency block at point `t` is row `5000 + t · 200 + r`. -/
theorem iblk1_apply (c : Dev nD) (t : Fin cfg0.N) (r : Fin 200) (k : Fin 10000) :
    iblk m c 1 t (ix3 (0 : Fin 1) r k)
      = m ((c : Thread nD τ).loc main_arg1) (ix2 ⟨5000 + t.val * 200 + r.val, by have := t_lt t; omega⟩ k) := by
  obtain ⟨e0, e1, e2⟩ := idx_w1 t
  unfold iblk
  rw [View.read_apply]
  show V m c main_call0_v0 (((cfg0.win 1).blk t).view.emb (ix3 (0 : Fin 1) r k)) = _
  refine V_v0_at m c _ _ ?_ ?_
  · show 5000 + t.val * 200 + r.val = (win0_1.index t (0 : Fin 3) * 1 + 1 * 0) * 5000 + (win0_1.index t (1 : Fin 3) * 200 + 1 * r.val)
    rw [e0, e1]; omega
  · show k.val = win0_1.index t (2 : Fin 3) * 10000 + 1 * k.val
    rw [e2]; omega

/-- The features' block is the features. -/
theorem iblk2_apply (c : Dev nD) (t : Fin cfg0.N) (k : Fin 10000) (j : Fin 128) :
    iblk m c 2 t (ix2 k j) = m ((c : Thread nD τ).loc main_arg0) (ix2 k j) := by
  obtain ⟨e0, e1⟩ := idx_w2 t
  unfold iblk
  rw [View.read_apply]
  show V m c main_arg0 (((cfg0.win 2).blk t).view.emb (ix2 k j)) = _
  rw [V_arg0]
  refine congrArg _ (funext fun a => Fin.ext ?_)
  match a with
  | ⟨0, _⟩ => show win0_2.index t (0 : Fin 2) * 10000 + 1 * k.val = k.val; rw [e0]; omega
  | ⟨1, _⟩ => show win0_2.index t (1 : Fin 2) * 128 + 1 * j.val = j.val; rw [e1]; omega

/-- The own weights' block is the own weights. -/
theorem iblk3_apply (c : Dev nD) (t : Fin cfg0.N) (j : Fin 128) (cc : Fin 128) :
    iblk m c 3 t (ix2 j cc) = m ((c : Thread nD τ).loc main_arg2) (ix2 j cc) := by
  obtain ⟨e0, e1⟩ := idx_w3 t
  unfold iblk
  rw [View.read_apply]
  show V m c main_arg2 (((cfg0.win 3).blk t).view.emb (ix2 j cc)) = _
  rw [V_arg2]
  refine congrArg _ (funext fun a => Fin.ext ?_)
  match a with
  | ⟨0, _⟩ => show win0_3.index t (0 : Fin 2) * 128 + 1 * j.val = j.val; rw [e0]; omega
  | ⟨1, _⟩ => show win0_3.index t (1 : Fin 2) * 128 + 1 * cc.val = cc.val; rw [e1]; omega

/-- The neighbour weights' block is the neighbour weights. -/
theorem iblk4_apply (c : Dev nD) (t : Fin cfg0.N) (j : Fin 128) (cc : Fin 128) :
    iblk m c 4 t (ix2 j cc) = m ((c : Thread nD τ).loc main_arg3) (ix2 j cc) := by
  obtain ⟨e0, e1⟩ := idx_w4 t
  unfold iblk
  rw [View.read_apply]
  show V m c main_arg3 (((cfg0.win 4).blk t).view.emb (ix2 j cc)) = _
  rw [V_arg3]
  refine congrArg _ (funext fun a => Fin.ext ?_)
  match a with
  | ⟨0, _⟩ => show win0_4.index t (0 : Fin 2) * 128 + 1 * j.val = j.val; rw [e0]; omega
  | ⟨1, _⟩ => show win0_4.index t (1 : Fin 2) * 128 + 1 * cc.val = cc.val; rw [e1]; omega

/-- The bias row's block is the bias. -/
theorem iblk5_apply (c : Dev nD) (t : Fin cfg0.N) (cc : Fin 128) :
    iblk m c 5 t (ix2 (0 : Fin 1) cc) = m ((c : Thread nD τ).loc main_arg4) (ix1 cc) := by
  obtain ⟨e0, e1⟩ := idx_w5 t
  unfold iblk
  rw [View.read_apply]
  show V m c main_call0_v1 (((cfg0.win 5).blk t).view.emb (ix2 (0 : Fin 1) cc)) = _
  refine V_v1_at m c _ _ ?_
  show cc.val = win0_5.index t (1 : Fin 2) * 128 + 1 * cc.val
  rw [e1]; omega

end Cert.KernelIdeal.Hand

end
-- ==== Proof.KI.Final.lean ====
import proofs.«164299_g56822417326211_cont_9to1_m_1158_12_alg».proof.Proof.KI.Data
import proofs.«164299_g56822417326211_cont_9to1_m_1158_12_alg».proof.Proof.KI.Blocks
import Idealize.ShloMosaic.Lib.Pipeline.Value
import Idealize.ShloMosaic.Lib.ValueIdx
import Idealize.ShloMosaic.Lib.StableHlo.Run

/-!
# From the output blocks to the program's result

The pipeline's result array is two slabs of 5000 rows. At grid point `t` the output window covers rows
`t · 200 … t · 200 + 199` of both slabs and is written back, so after the last point the array holds, at row `R` of
slab `p`, whatever the point `R / 200` left at row `R mod 200` of slab `p` of its block. If every block is the
restriction of one function `Gf` of the node `p · 5000 + R` and the feature, the array is that function; the last
reshape lays the two slabs end to end, so the program's result at node `n` is `Gf n`.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The output window over the grid -/

/-- The output window is at row block `t` of both slabs. -/
theorem idx_w6 : ∀ t : Fin cfg0.N, win0_6.index t (0 : Fin 3) = 0 ∧ win0_6.index t (1 : Fin 3) = t.val ∧ win0_6.index t (2 : Fin 3) = 0 :=
  (by decide +kernel : ∀ t : Fin grid0.N, _)

/-- A function of the node and the feature, laid out as the two slabs. -/
def slabs (Gf : Fin 10000 → Fin 128 → Elt F .f32) : S2x5000x128.Idx → Elt F .f32 := fun i =>
  Gf ⟨(i 0).val * 5000 + (i 1).val, by
      have h0 : (i 0).val < 2 := (i 0).isLt
      have h1 : (i 1).val < 5000 := (i 1).isLt
      omega⟩ ⟨(i 2).val, (i 2).isLt⟩

theorem slabs_apply (Gf : Fin 10000 → Fin 128 → Elt F .f32) (p : Fin 2) (R : Fin 5000) (cc : Fin 128) :
    slabs Gf (ix3 p R cc) = Gf ⟨p.val * 5000 + R.val, by omega⟩ cc := rfl

/-- What point `t` writes back is its block of the slabs, when the body leaves `Gf` on the block's rows. -/
theorem flushed6_eq (c : Dev nD) (Gf : Fin 10000 → Fin 128 → Elt F .f32)
    (h : ∀ (t : Fin cfg0.N) (p : Fin 2) (r : Fin 200) (cc : Fin 128),
      out6 m c t (ix3 p r cc) = Gf ⟨p.val * 5000 + t.val * 200 + r.val, by have := t_lt t; omega⟩ cc)
    (t : Fin cfg0.N) :
    (dats m 0 c).flushed 6 t = ((cfg0.win 6).blk t).view.read (Elt F) (slabs Gf) := by
  show (cfg0.win 6).cut (grid0.coords t) ((dats m 0 c).after 6 t) = _
  rw [after6]
  obtain ⟨e0, e1, e2⟩ := idx_w6 t
  funext y
  obtain ⟨p, r, cc, rfl⟩ : ∃ (p : Fin 2) (r : Fin 200) (cc : Fin 128), y = ix3 p r cc :=
    ⟨y 0, y 1, y 2, eq_ix3 (n0 := 2) (n1 := 200) (n2 := 128) y⟩
  have hx : (cfg0.win 6).xinj (grid0.coords t) (ix3 p r cc) = ix3 p r cc :=
    funext fun a => by match a with | ⟨0, _⟩ => rfl | ⟨1, _⟩ => rfl | ⟨2, _⟩ => rfl
  show out6 m c t ((cfg0.win 6).xinj (grid0.coords t) (ix3 p r cc)) = _
  rw [hx, h t p r cc, View.read_apply]
  show Gf _ cc = slabs Gf (((cfg0.win 6).blk t).view.emb (ix3 p r cc))
  unfold slabs
  refine congrArg₂ Gf (Fin.ext ?_) (Fin.ext ?_)
  · show p.val * 5000 + t.val * 200 + r.val
      = (win0_6.index t (0 : Fin 3) * 2 + 1 * p.val) * 5000 + (win0_6.index t (1 : Fin 3) * 200 + 1 * r.val)
    rw [e0, e1]; omega
  · show cc.val = win0_6.index t (2 : Fin 3) * 128 + 1 * cc.val
    rw [e2]; omega

/-- An entry of the result array is in point `t`'s block iff each coordinate is in the block's range. -/
theorem mem_blk6 (t : Fin cfg0.N) (i : S2x5000x128.Idx) :
    i ∈ ((cfg0.win 6).blk t).view.set ↔ ∀ a : Fin 3, win0_6.index t a * S2x200x128.size a ≤ (i a).val
      ∧ (i a).val < win0_6.index t a * S2x200x128.size a + S2x200x128.size a := by
  show i ∈ ((View.whole main_call0_v2).slice (win0_6.rect t)).set ↔ _
  rw [View.set_slice_whole, Rect.mem_set_unit]
  exact Iff.rfl

/-- Every entry is in the block of the point its row falls in. -/
theorem cover6 (i : S2x5000x128.Idx) :
    ∃ t : Fin cfg0.N, (cfg0.win 6).flush t = true ∧ i ∈ ((cfg0.win 6).blk t).view.set := by
  have h0 : (i 0).val < 2 := (i 0).isLt
  have h1 : (i 1).val < 5000 := (i 1).isLt
  have h2 : (i 2).val < 128 := (i 2).isLt
  have hN : cfg0.N = 25 := N_0
  let t : Fin cfg0.N := ⟨(i 1).val / 200, by rw [hN]; omega⟩
  obtain ⟨e0, e1, e2⟩ := idx_w6 t
  have e1' : win0_6.index t (1 : Fin 3) = (i 1).val / 200 := e1
  refine ⟨t, flush0_6 t, ?_⟩
  rw [mem_blk6]
  intro a
  match a with
  | ⟨0, _⟩ =>
    show win0_6.index t (0 : Fin 3) * 2 ≤ (i 0).val ∧ (i 0).val < win0_6.index t (0 : Fin 3) * 2 + 2
    rw [e0]; omega
  | ⟨1, _⟩ =>
    show win0_6.index t (1 : Fin 3) * 200 ≤ (i 1).val ∧ (i 1).val < win0_6.index t (1 : Fin 3) * 200 + 200
    rw [e1']; omega
  | ⟨2, _⟩ =>
    show win0_6.index t (2 : Fin 3) * 128 ≤ (i 2).val ∧ (i 2).val < win0_6.index t (2 : Fin 3) * 128 + 128
    rw [e2]; omega

/-- The result array after the last point, from any function the output blocks restrict. -/
theorem arrAt6_of (c : Dev nD) (Gf : Fin 10000 → Fin 128 → Elt F .f32)
    (h : ∀ (t : Fin cfg0.N) (p : Fin 2) (r : Fin 200) (cc : Fin 128),
      out6 m c t (ix3 p r cc) = Gf ⟨p.val * 5000 + t.val * 200 + r.val, by have := t_lt t; omega⟩ cc)
    (p : Fin 2) (R : Fin 5000) (cc : Fin 128) :
    (dats m 0 c).arrAt 6 cfg0.N (ix3 p R cc) = Gf ⟨p.val * 5000 + R.val, by omega⟩ cc :=
  (congrFun ((dats m 0 c).arrAt_eq_of_cover 6 (slabs Gf) (fun t _ => flushed6_eq m c Gf h t) cover6) (ix3 p R cc)).trans
    (slabs_apply Gf p R cc)

/-! ## The last reshape -/

/-- The program's result, from the result array: the two slabs end to end. -/
theorem result_of (c : Dev nD) (Gf : Fin 10000 → Fin 128 → Elt F .f32) (X : Buf (Elt F) ((c : Thread nD τ).loc main_call0_v2))
    (hX : ∀ (p : Fin 2) (R : Fin 5000) (cc : Fin 128), X (ix3 p R cc) = Gf ⟨p.val * 5000 + R.val, by omega⟩ cc)
    (i : S10000x128.Idx) :
    StableHlo.after hostOps1 (Wout m c X) (Proc.devRef .tc main_v0) i = Gf (i 0) (i 1) := by
  have h0 : (i 0).val < 10000 := (i 0).isLt
  have e : (StableHlo.after hostOps1 (Wout m c X) (Proc.devRef .tc main_v0) : S10000x128.Idx → Elt F .f32)
      = shapeCast S10000x128 (X : S2x5000x128.Idx → Elt F .f32) shapeCasts_S2x5000x128_S10000x128 := by
    after_results
    unfold Wout
    rw [Function.update_self]
    rfl
  rw [e]
  refine (shapeCast_apply _ _ i (ix3 (n0 := 2) (n1 := 5000) (n2 := 128) ⟨(i 0).val / 5000, by omega⟩ ⟨(i 0).val % 5000, by omega⟩ (i 1)) ?_).trans ?_
  · rw [Shape.rowMajor_val_three, Shape.rowMajor_val_two]
    show ((i 0).val / 5000 * 5000 + (i 0).val % 5000) * 128 + (i 1).val = (i 0).val * 128 + (i 1).val
    omega
  · exact (hX ⟨(i 0).val / 5000, by omega⟩ ⟨(i 0).val % 5000, by omega⟩ (i 1)).trans
      (congrArg (fun z => Gf z (i 1)) (Fin.ext (by show (i 0).val / 5000 * 5000 + (i 0).val % 5000 = (i 0).val; omega)))

/-! ## The input arrays are never written -/

/-- The features after the run are the features as launched, -/
theorem arrAt_in_2 (c : Dev nD) : (dats m 0 c).arrAt 2 cfg0.N = m ((c : Thread nD τ).loc main_arg0) :=
  ((dats m 0 c).arrAt_in 2 rfl _).trans ((A_eq m c 2).trans (V_arg0 m c))
/-- the own weights the own weights, -/
theorem arrAt_in_3 (c : Dev nD) : (dats m 0 c).arrAt 3 cfg0.N = m ((c : Thread nD τ).loc main_arg2) :=
  ((dats m 0 c).arrAt_in 3 rfl _).trans ((A_eq m c 3).trans (V_arg2 m c))
/-- the neighbour weights the neighbour weights. -/
theorem arrAt_in_4 (c : Dev nD) : (dats m 0 c).arrAt 4 cfg0.N = m ((c : Thread nD τ).loc main_arg3) :=
  ((dats m 0 c).arrAt_in 4 rfl _).trans ((A_eq m c 4).trans (V_arg3 m c))

end Cert.KernelIdeal.Hand

end
-- ==== Proof.KI.Value.lean ====
import proofs.«164299_g56822417326211_cont_9to1_m_1158_12_alg».proof.Proof.KI.Frame
import proofs.«164299_g56822417326211_cont_9to1_m_1158_12_alg».proof.Proof.KI.Pieces
import proofs.«164299_g56822417326211_cont_9to1_m_1158_12_alg».proof.Proof.KI.Blocks
import proofs.«164299_g56822417326211_cont_9to1_m_1158_12_alg».proof.Proof.KI.Final
import proofs.«164299_g56822417326211_cont_9to1_m_1158_12_alg».proof.Proof.Spec

/-!
# The idealized kernel's result

At the extended reals the output block's buffer after point `t` holds, at slab `p`, row `r`, feature `c`, the graph
convolution of the launch arguments at node `p · 5000 + t · 200 + r`: the point's adjacency block is rows of the
reshaped adjacency, its row blocks of `x` the matching rows, the scratch the transformed features of every node. The
write-backs of the 25 points tile the result array, and the last reshape lays slab `p`'s row `R` at row `p · 5000 + R`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The graph convolution of the launch arguments on core `c`, at node `R` and feature `cc`. -/
def Gm (c : Dev nD) (R : Fin 10000) (cc : Fin 128) : EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) R cc

/-- The transformed features computed from the point's blocks are those of the launch arguments. -/
theorem H_blocks (c : Dev nD) (t : Fin cfg0.N) (k : Fin 10000) (cc : Fin 128) :
    Cert.Spec.H (blkX m c t) (blkWn m c t) k cc = Cert.Spec.H (m ((c : Thread nD τ).loc main_arg0)) (m ((c : Thread nD τ).loc main_arg3)) k cc := by
  unfold Cert.Spec.H
  refine Finset.sum_congr rfl fun j _ => ?_
  rw [show blkX m c t (ix2 k j) = _ from iblk2_apply m c t k j, show blkWn m c t (ix2 j cc) = _ from iblk4_apply m c t j cc]

theorem rowIx_zero (t : Fin cfg0.N) (r : Fin 200) :
    rowIx 0 t r = ⟨t.val * 200 + r.val, by have := t_lt t; have := r.isLt; omega⟩ :=
  Fin.ext (by simp [rowIx])

theorem rowIx_one (t : Fin cfg0.N) (r : Fin 200) :
    rowIx 1 t r = ⟨5000 + t.val * 200 + r.val, by have := t_lt t; have := r.isLt; omega⟩ :=
  Fin.ext (by simp [rowIx])

/-- Slab 0 of the output block after point `t`: the convolution at the upper half's rows. -/
theorem out6_G0 (c : Dev nD) (t : Fin cfg0.N) (r : Fin 200) (cc : Fin 128) :
    out6 (F := Ideal) m c t (ix3 (0 : Fin 2) r cc) = Gm m c (rowIx 0 t r) cc := by
  rw [out6_apply0]
  unfold Gm Cert.Spec.G
  congr 1
  · congr 1
    · refine Finset.sum_congr rfl fun k _ => ?_
      rw [show blkAT m c t (ix3 (0 : Fin 1) r k) = _ from iblk0_apply m c t r k, H_blocks, rowIx_zero]
    · refine Finset.sum_congr rfl fun j _ => ?_
      rw [show blkX m c t (ix2 (rowIx 0 t r) j) = _ from iblk2_apply m c t (rowIx 0 t r) j,
        show blkWo m c t (ix2 j cc) = _ from iblk3_apply m c t j cc]
  · exact iblk5_apply m c t cc

/-- Slab 1: the convolution at the lower half's rows. -/
theorem out6_G1 (c : Dev nD) (t : Fin cfg0.N) (r : Fin 200) (cc : Fin 128) :
    out6 (F := Ideal) m c t (ix3 (1 : Fin 2) r cc) = Gm m c (rowIx 1 t r) cc := by
  rw [out6_apply1]
  unfold Gm Cert.Spec.G
  congr 1
  · congr 1
    · refine Finset.sum_congr rfl fun k _ => ?_
      rw [show blkAB m c t (ix3 (0 : Fin 1) r k) = _ from iblk1_apply m c t r k, H_blocks, rowIx_one]
    · refine Finset.sum_congr rfl fun j _ => ?_
      rw [show blkX m c t (ix2 (rowIx 1 t r) j) = _ from iblk2_apply m c t (rowIx 1 t r) j,
        show blkWo m c t (ix2 j cc) = _ from iblk3_apply m c t j cc]
  · exact iblk5_apply m c t cc

/-- Both slabs at once. -/
theorem out6_G (c : Dev nD) (t : Fin cfg0.N) (p : Fin 2) (r : Fin 200) (cc : Fin 128) :
    out6 (F := Ideal) m c t (ix3 p r cc) = Gm m c (rowIx p t r) cc := by
  by_cases hp : p = 0
  · subst hp; exact out6_G0 m c t r cc
  · have hp1 : p = 1 := Fin.ext (by
      have h2 := p.isLt
      have h0 : p.val ≠ 0 := fun h => hp (Fin.ext h)
      show p.val = 1
      omega)
    subst hp1; exact out6_G1 m c t r cc

/-- The run of the idealized kernel with its result stated: the graph convolution of the launch arguments. -/
theorem run_value : θ_run (defs (F := Ideal)) (onTc (τ := τ) (main (F := Ideal))) ⟨m, fun _ => 0, ρ⟩ (fun r => ∀ c : Dev nD,
      r.2.mem ((c.tc : Thread nD τ).loc main_v0)
          = (fun i => Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
    ((h c).1 2).trans (((dats m 0 c).arrAt_in 2 rfl _).trans ((A_eq m c 2).trans (V_x m c))),
    (h c).2.1,
    ((h c).1 3).trans (((dats m 0 c).arrAt_in 3 rfl _).trans ((A_eq m c 3).trans (V_wo m c))),
    ((h c).1 4).trans (((dats m 0 c).arrAt_in 4 rfl _).trans ((A_eq m c 4).trans (V_wn m c))),
    (h c).2.2.1⟩) (run_dats m ρ)
  rw [(h c).2.2.2]
  funext i
  exact result_of m c (Gm m c) _ (fun p R cc => arrAt6_of m c (Gm m c) (fun t p r cc => out6_G m c t p r cc) p R cc) i

end Cert.KernelIdeal.Hand

end
-- ==== Proof.RefValue.lean ====
import proofs.«164299_g56822417326211_cont_9to1_m_1158_12_alg».proof.Defs
import proofs.«164299_g56822417326211_cont_9to1_m_1158_12_alg».proof.Proof.Gen.ReferenceIdeal
import proofs.«164299_g56822417326211_cont_9to1_m_1158_12_alg».proof.Proof.Gen.Pre_finite_inputs
import proofs.«164299_g56822417326211_cont_9to1_m_1158_12_alg».proof.Proof.Gen.ReferenceIdeal.Run
import proofs.«164299_g56822417326211_cont_9to1_m_1158_12_alg».proof.Proof.Gen.ReferenceIdeal.Read
import proofs.«164299_g56822417326211_cont_9to1_m_1158_12_alg».proof.Proof.Spec
import Idealize.ShloMosaic.PureOps.Ideal
import Idealize.ShloMosaic.Lib.ValueIdx

/-!
# The reference computes the graph convolution

The reference's seven host operations, read one element at a time over the extended reals, are the entry-by-entry
formula `Cert.Spec.G`: the inner product `x · wn` feeds the adjacency product, the node's own product `x · wo` is
added to it, and the bias, broadcast along the rows, is added last. Each contraction reads its operands at indices
that are plain pairs of coordinates; the equations below say which.
-/

noncomputable section

namespace Cert.ReferenceIdeal.RefValue

open Cert.ReferenceIdeal Cert.ReferenceIdeal.Read Idealize.ShloMosaic Idealize.ShloMosaic.TcCoe Idealize.SL.Sem
  Idealize.ShloMosaic.ValueIdx

/-! ## The operand indices, by coordinates -/

/-- The adjacency product at `(r, c)` reads `adj` at `(r, k)` … -/
theorem lidx1 (r : Fin 10000) (c : Fin 128) (k : Fin 10000) : lidx_main_v1 (ix2 r c) k = ix2 r k :=
  funext fun a => Fin.ext (by match a with | ⟨0, _⟩ => rfl | ⟨1, _⟩ => rfl)
/-- … and the transformed features at `(k, c)`. -/
theorem ridx1 (r : Fin 10000) (c : Fin 128) (k : Fin 10000) : ridx_main_v1 (ix2 r c) k = ix2 k c :=
  funext fun a => Fin.ext (by match a with | ⟨0, _⟩ => rfl | ⟨1, _⟩ => rfl)
/-- The transformed features at `(k, c)` read `x` at `(k, j)` … -/
theorem lidx0 (k : Fin 10000) (c : Fin 128) (j : Fin 128) : lidx_main_v0 (ix2 k c) j = ix2 k j :=
  funext fun a => Fin.ext (by match a with | ⟨0, _⟩ => rfl | ⟨1, _⟩ => rfl)
/-- … and the neighbour weights at `(j, c)`. -/
theorem ridx0 (k : Fin 10000) (c : Fin 128) (j : Fin 128) : ridx_main_v0 (ix2 k c) j = ix2 j c :=
  funext fun a => Fin.ext (by match a with | ⟨0, _⟩ => rfl | ⟨1, _⟩ => rfl)
/-- The node's own product at `(r, c)` reads `x` at `(r, j)` … -/
theorem lidx2 (r : Fin 10000) (c : Fin 128) (j : Fin 128) : lidx_main_v2 (ix2 r c) j = ix2 r j :=
  funext fun a => Fin.ext (by match a with | ⟨0, _⟩ => rfl | ⟨1, _⟩ => rfl)
/-- … and the own weights at `(j, c)`. -/
theorem ridx2 (r : Fin 10000) (c : Fin 128) (j : Fin 128) : ridx_main_v2 (ix2 r c) j = ix2 j c :=
  funext fun a => Fin.ext (by match a with | ⟨0, _⟩ => rfl | ⟨1, _⟩ => rfl)
/-- The bias, broadcast to one row and then along the rows, is read at `c`. -/
theorem idx45 (r : Fin 10000) (c : Fin 128) : idx_main_v4 (idx_main_v5 (ix2 r c)) = ix1 c :=
  funext fun a => Fin.ext (by match a with | ⟨0, _⟩ => rfl)

/-! ## The reference's result, entry by entry -/

/-- At the index with coordinates `(r, c)` the reference's result is `G` at `r`, `c`. -/
theorem ref_ix (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) (x4 : (⟨S128, .f32⟩ : BufTy).Contents (Elt Ideal))
    (r : Fin 10000) (c : Fin 128) :
    val_main_v6 (F := Ideal) x0 x1 x2 x3 x4 (ix2 r c) = Cert.Spec.G x0 x1 x2 x3 x4 r c := by
  rw [val_main_v6_apply, val_main_v3_apply, val_main_v1_apply, val_main_v2_apply, val_main_v5_apply, val_main_v4_apply,
    Ideal.addf_def, Ideal.addf_def, idx45 r c]
  unfold Cert.Spec.G Cert.Spec.H
  congr 1
  congr 1
  · refine Finset.sum_congr rfl fun k _ => ?_
    rw [val_main_v0_apply, lidx1 r c k, ridx1 r c k]
    congr 1
    refine Finset.sum_congr rfl fun j _ => ?_
    rw [lidx0 k c j, ridx0 k c j]
  · refine Finset.sum_congr rfl fun j _ => ?_
    rw [lidx2 r c j, ridx2 r c j]

/-- The reference's result at any index is `G` at the index's two coordinates. -/
theorem ref_eq (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) (x4 : (⟨S128, .f32⟩ : BufTy).Contents (Elt Ideal))
    (i : S10000x128.Idx) :
    Cert.ReferenceIdeal.Read.val_main_v6 (F := Ideal) x0 x1 x2 x3 x4 i = Cert.Spec.G x0 x1 x2 x3 x4 (i 0) (i 1) :=
  (congrArg (val_main_v6 (F := Ideal) x0 x1 x2 x3 x4) (eq_ix2 i)).trans (ref_ix x0 x1 x2 x3 x4 (i 0) (i 1))

/-! ## The reference's run, with its result stated as `G` -/

/-- Every weakly fair execution of the reference terminates with its result, at every index, at `G` of the launch
    contents of the five arguments, and with the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ i : S10000x128.Idx, r.2.mem ((c.tc : Thread nD τ).loc main_v6) i
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨fun i => by
      rw [(h c).1, val_main_v6_eq]
      exact ref_eq _ _ _ _ _ i, (h c).2⟩)
    (Cert.ReferenceIdeal.Value.run (F := Ideal) m ρ)

/-- The reference leaves its arguments unchanged. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The graph-convolution kernel against its reference:  out = adj · (x · W_nbr) + x · W_own + bias.

  The kernel runs one pipeline over 25 grid points. At the first point it computes the transformed features of every
  node, x · W_nbr, once, into a scratch buffer that every later point reads; at point t it multiplies two 200-row
  blocks of the adjacency (rows 200t … of the top and of the bottom half) by those features, adds the own-weight
  product of the matching rows of x and the bias, and writes the two row slabs of the result. At the extended reals a
  change of float format is the identity and a product into a zero accumulator is the plain sum, so row r of the
  kernel's result is  (Σ_k adj(r,k) · Σ_j x(k,j) · W_nbr(j,c)  +  Σ_j x(r,j) · W_own(j,c))  +  bias(c),  which is the
  reference's term read at an index: the two sides are one function of the arguments, sum for sum, with no law
  beyond that reading.

  The frames: the reference's is its run with the result dropped. The kernel hands the adjacency to the pipeline
  through two windows, so the two windows' arrays are one buffer; each window holds it at one half of the full
  share, and the run follows from the library's launch theorem for windows that may share arrays, the body
  obligation by a symbolic run of the body in its two cases (first point / later point), the scratch carried in the
  invariant. The same text read at the word-level program's namespace gives that program's frame.
-/
import proofs.«164299_g56822417326211_cont_9to1_m_1158_12_alg».proof.Defs
import proofs.«164299_g56822417326211_cont_9to1_m_1158_12_alg».proof.Proof.Gen.Kernel
import proofs.«164299_g56822417326211_cont_9to1_m_1158_12_alg».proof.Proof.Gen.KernelIdeal
import proofs.«164299_g56822417326211_cont_9to1_m_1158_12_alg».proof.Proof.Gen.ReferenceIdeal
import proofs.«164299_g56822417326211_cont_9to1_m_1158_12_alg».proof.Proof.Gen.Pre_finite_inputs
import proofs.«164299_g56822417326211_cont_9to1_m_1158_12_alg».proof.Proof.K.Frame
import proofs.«164299_g56822417326211_cont_9to1_m_1158_12_alg».proof.Proof.KI.Frame
import proofs.«164299_g56822417326211_cont_9to1_m_1158_12_alg».proof.Proof.KI.Value
import proofs.«164299_g56822417326211_cont_9to1_m_1158_12_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_k : @Cert.frame_Kernel Cert.Kernel.Gen.facts Cert.Pre_finite_inputs.Gen.facts :=
  fun m ρ _ => Cert.Kernel.Hand.frame (F := Bits) m ρ

/-- So does the idealized kernel. -/
theorem frame_ki : @Cert.frame_KernelIdeal Cert.KernelIdeal.Gen.facts Cert.Pre_finite_inputs.Gen.facts :=
  fun m ρ _ => Cert.KernelIdeal.Hand.frame (F := Ideal) m ρ

/-- From memories that agree on the arguments both idealized programs end with the graph convolution of the
    arguments as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun i => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1),
    Cert.KernelIdeal.Hand.run_value m ρ, ?_⟩
  refine (θ_run Cert.ReferenceIdeal.defs _ _).mono (fun r h c => ⟨?_, (h c).2⟩) (Cert.ReferenceIdeal.RefValue.run_G m' ρ')
  funext i
  rw [(h c).1 i, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
